-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16384x512 : Shape := ⟨3, ![2, 16384, 512]⟩
abbrev S16384 : Shape := ⟨1, ![16384]⟩
abbrev S2x100x512 : Shape := ⟨3, ![2, 100, 512]⟩
abbrev S_ : Shape := ⟨0, ![]⟩

class Facts : Prop where
  bcast_S_S2x16384x512 : S_.BroadcastsInDim S2x16384x512 (![] : Fin 0 → Fin S2x16384x512.rank)
  reducesTo_S2x16384x512_S_d0_1_2 : S2x16384x512.ReducesTo [0, 1, 2] S_
  h_S_ : 0 < S_.numel
  bcast_S_S2x100x512 : S_.BroadcastsInDim S2x100x512 (![] : Fin 0 → Fin S2x100x512.rank)
  reducesTo_S2x100x512_S_d0_1_2 : S2x100x512.ReducesTo [0, 1, 2] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S2x16384x512 .f32) (main_arg1 : IVec S16384 32) (main_arg2 : FVec F S2x100x512 .f32) : IVec S_ 1 :=
  let main_v0 : FVec F S2x16384x512 .f32 := Host.absf main_arg0
  let main_cst : FVec F S_ .f32 := constant S_ .f32 0x7F800000#32
  let main_v1 : FVec F S2x16384x512 .f32 := broadcastInDim S2x16384x512 ![] bcast_S_S2x16384x512 main_cst
  let main_v2 : IVec S2x16384x512 1 := cmpf .olt main_v0 main_v1
  let main_c : IVec S_ 1 := constantI S_ 1 1#1
  let main_v3 : IVec S_ 1 := (fun x v => Host.reduce IntOp.andi x v reducesTo_S2x16384x512_S_d0_1_2 h_S_) main_v2 main_c
  let main_v4 : FVec F S2x100x512 .f32 := Host.absf main_arg2
  let main_cst_0 : FVec F S_ .f32 := constant S_ .f32 0x7F800000#32
  let main_v5 : FVec F S2x100x512 .f32 := broadcastInDim S2x100x512 ![] bcast_S_S2x100x512 main_cst_0
  let main_v6 : IVec S2x100x512 1 := cmpf .olt main_v4 main_v5
  let main_c_1 : IVec S_ 1 := constantI S_ 1 1#1
  let main_v7 : IVec S_ 1 := (fun x v => Host.reduce IntOp.andi x v reducesTo_S2x100x512_S_d0_1_2 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg1 main_v9
  let main_c_3 : IVec S_ 32 := constantI S_ 32 100#32
  let main_v11 : IVec S16384 32 := broadcastInDim S16384 ![] bcast_S_S16384 main_c_3
  let main_v12 : IVec S16384 1 := cmpi .slt main_arg1 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S2x16384x512 : Shape := ⟨3, ![2, 16384, 512]⟩
abbrev S16384 : Shape := ⟨1, ![16384]⟩
abbrev S2x100x512 : Shape := ⟨3, ![2, 100, 512]⟩
abbrev S_ : Shape := ⟨0, ![]⟩
abbrev S2x128x512 : Shape := ⟨3, ![2, 128, 512]⟩
abbrev S16384x1 : Shape := ⟨2, ![16384, 1]⟩
abbrev S2x16384x1 : Shape := ⟨3, ![2, 16384, 1]⟩
abbrev S2x1x512 : Shape := ⟨3, ![2, 1, 512]⟩
abbrev S1x4096x512 : Shape := ⟨3, ![1, 4096, 512]⟩
abbrev S1x128x512 : Shape := ⟨3, ![1, 128, 512]⟩
abbrev S4096x1 : Shape := ⟨2, ![4096, 1]⟩
abbrev S1x4096x1 : Shape := ⟨3, ![1, 4096, 1]⟩
abbrev S1x1x512 : Shape := ⟨3, ![1, 1, 512]⟩
abbrev S1x512 : Shape := ⟨2, ![1, 512]⟩
abbrev S4096x512 : Shape := ⟨2, ![4096, 512]⟩
abbrev S128x512 : Shape := ⟨2, ![128, 512]⟩
abbrev S4096 : Shape := ⟨1, ![4096]⟩
abbrev S4096x128 : Shape := ⟨2, ![4096, 128]⟩
abbrev S512 : Shape := ⟨1, ![512]⟩
abbrev S2x16384 : Shape := ⟨2, ![2, 16384]⟩
abbrev S2x512 : Shape := ⟨2, ![2, 512]⟩
abbrev S2 : Shape := ⟨1, ![2]⟩
abbrev S2x100 : Shape := ⟨2, ![2, 100]⟩
abbrev S2x100x100 : Shape := ⟨3, ![2, 100, 100]⟩
abbrev S2x100x1 : Shape := ⟨3, ![2, 100, 1]⟩
abbrev S2x1x100 : Shape := ⟨3, ![2, 1, 100]⟩
abbrev S100x100 : Shape := ⟨2, ![100, 100]⟩

abbrev nBuf : Space → Nat
  | .hbm => 73
  | .vmem => 10
  | .smem => 0
  | _ => 0

abbrev bufTy : (tb : Table) → Fin (tcTables nBuf tb) → BufTy
  | .hbm, ⟨0, _⟩ => ⟨S2x16384x512, .f32⟩
  | .hbm, ⟨1, _⟩ => ⟨S16384, .i32⟩
  | .hbm, ⟨2, _⟩ => ⟨S2x100x512, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S_, .i32⟩
  | .hbm, ⟨12, _⟩ => ⟨S_, .f32⟩
  | .hbm, ⟨13, _⟩ => ⟨S2x128x512, .f32⟩
  | .hbm, ⟨14, _⟩ => ⟨S16384x1, .i32⟩
  | .hbm, ⟨15, _⟩ => ⟨S2x16384x1, .f32⟩
  | .hbm, ⟨16, _⟩ => ⟨S2x1x512, .f32⟩
  | .hbm, ⟨17, _⟩ => ⟨S2x16384, .f32⟩
  | .hbm, ⟨18, _⟩ => ⟨S2x512, .f32⟩
  | .hbm, ⟨19, _⟩ => ⟨S_, .f32⟩
  | .hbm, ⟨20, _⟩ => ⟨S2, .f32⟩
  | .hbm, ⟨21, _⟩ => ⟨S_, .f32⟩
  | .hbm, ⟨22, _⟩ => ⟨S2, .f32⟩
  | .hbm, ⟨23, _⟩ => ⟨S2, .f32⟩
  | .hbm, ⟨24, _⟩ => ⟨S_, .f32⟩
  | .hbm, ⟨25, _⟩ => ⟨S2, .f32⟩
  | .hbm, ⟨26, _⟩ => ⟨S2, .f32⟩
  | .hbm, ⟨27, _⟩ => ⟨S2x100x512, .f32⟩
  | .hbm, ⟨28, _⟩ => ⟨S_, .f32⟩
  | .hbm, ⟨29, _⟩ => ⟨S2x100, .f32⟩
  | .hbm, ⟨30, _⟩ => ⟨S2x100x100, .f32⟩
  | .hbm, ⟨31, _⟩ => ⟨S2x100x1, .f32⟩
  | .hbm, ⟨32, _⟩ => ⟨S2x1x100, .f32⟩
  | .hbm, ⟨33, _⟩ => ⟨S2x100x100, .f32⟩
  | .hbm, ⟨34, _⟩ => ⟨S2x100x100, .f32⟩
  | .hbm, ⟨35, _⟩ => ⟨S2x100x100, .f32⟩
  | .hbm, ⟨36, _⟩ => ⟨S_, .f32⟩
  | .hbm, ⟨37, _⟩ => ⟨S2x100x100, .f32⟩
  | .hbm, ⟨38, _⟩ => ⟨S2x100x100, .f32⟩
  | .hbm, ⟨39, _⟩ => ⟨S2x100x100, .f32⟩
  | .hbm, ⟨40, _⟩ => ⟨S100x100, .i32⟩
  | .hbm, ⟨41, _⟩ => ⟨S100x100, .i32⟩
  | .hbm, ⟨42, _⟩ => ⟨S100x100, .i1⟩
  | .hbm, ⟨43, _⟩ => ⟨S2x100x100, .i1⟩
  | .hbm, ⟨44, _⟩ => ⟨S_, .f32⟩
  | .hbm, ⟨45, _⟩ => ⟨S2x100x100, .f32⟩
  | .hbm, ⟨46, _⟩ => ⟨S2x100x100, .f32⟩
  | .hbm, ⟨47, _⟩ => ⟨S_, .f32⟩
  | .hbm, ⟨48, _⟩ => ⟨S2, .f32⟩
  | .hbm, ⟨49, _⟩ => ⟨S_, .f32⟩
  | .hbm, ⟨50, _⟩ => ⟨S2, .f32⟩
  | .hbm, ⟨51, _⟩ => ⟨S2, .f32⟩
  | .hbm, ⟨52, _⟩ => ⟨S_, .f32⟩
  | .hbm, ⟨53, _⟩ => ⟨S2, .f32⟩
  | .hbm, ⟨54, _⟩ => ⟨S2, .f32⟩
  | .hbm, ⟨55, _⟩ => ⟨S_, .f32⟩
  | .hbm, ⟨56, _⟩ => ⟨S2, .f32⟩
  | .hbm, ⟨57, _⟩ => ⟨S2, .f32⟩
  | .hbm, ⟨58, _⟩ => ⟨S_, .f32⟩
  | .hbm, ⟨59, _⟩ => ⟨S2, .f32⟩
  | .hbm, ⟨60, _⟩ => ⟨S2, .f32⟩
  | .hbm, ⟨61, _⟩ => ⟨S_, .f32⟩
  | .hbm, ⟨62, _⟩ => ⟨S2, .f32⟩
  | .hbm, ⟨63, _⟩ => ⟨S2, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .local _ .vmem, ⟨0, _⟩ => ⟨S1x4096x512, .f32⟩
  | .local _ .vmem, ⟨1, _⟩ => ⟨S1x4096x512, .f32⟩
  | .local _ .vmem, ⟨2, _⟩ => ⟨S1x128x512, .f32⟩
  | .local _ .vmem, ⟨3, _⟩ => ⟨S1x128x512, .f32⟩
  | .local _ .vmem, ⟨4, _⟩ => ⟨S4096x1, .i32⟩
  | .local _ .vmem, ⟨5, _⟩ => ⟨S4096x1, .i32⟩
  | .local _ .vmem, ⟨6, _⟩ => ⟨S1x4096x1, .f32⟩
  | .local _ .vmem, ⟨7, _⟩ => ⟨S1x4096x1, .f32⟩
  | .local _ .vmem, ⟨8, _⟩ => ⟨S1x1x512, .f32⟩
  | .local _ .vmem, ⟨9, _⟩ => ⟨S1x1x512, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_c_1 : Ref sig .tc := ⟨.hbm, 11, rfl⟩
abbrev main_call1_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_4 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_cst_8 : Ref sig .tc := ⟨.hbm, 49, rfl⟩
abbrev main_v29 : Ref sig .tc := ⟨.hbm, 50, rfl⟩
abbrev main_v30 : Ref sig .tc := ⟨.hbm, 51, rfl⟩
abbrev main_cst_9 : Ref sig .tc := ⟨.hbm, 52, rfl⟩
abbrev main_v31 : Ref sig .tc := ⟨.hbm, 53, rfl⟩
abbrev main_v32 : Ref sig .tc := ⟨.hbm, 54, rfl⟩
abbrev main_cst_10 : Ref sig .tc := ⟨.hbm, 55, rfl⟩
abbrev main_v33 : Ref sig .tc := ⟨.hbm, 56, rfl⟩
abbrev main_v34 : Ref sig .tc := ⟨.hbm, 57, rfl⟩
abbrev main_cst_11 : Ref sig .tc := ⟨.hbm, 58, rfl⟩
abbrev main_v35 : Ref sig .tc := ⟨.hbm, 59, rfl⟩
abbrev main_v36 : Ref sig .tc := ⟨.hbm, 60, rfl⟩
abbrev main_cst_12 : Ref sig .tc := ⟨.hbm, 61, rfl⟩
abbrev main_v37 : Ref sig .tc := ⟨.hbm, 62, rfl⟩
abbrev main_v38 : Ref sig .tc := ⟨.hbm, 63, rfl⟩
abbrev main_cst_13 : Ref sig .tc := ⟨.hbm, 64, rfl⟩
abbrev main_v39 : Ref sig .tc := ⟨.hbm, 65, rfl⟩
abbrev main_cst_14 : Ref sig .tc := ⟨.hbm, 66, rfl⟩
abbrev main_v40 : Ref sig .tc := ⟨.hbm, 67, rfl⟩
abbrev main_cst_15 : Ref sig .tc := ⟨.hbm, 68, rfl⟩
abbrev main_v41 : Ref sig .tc := ⟨.hbm, 69, rfl⟩
abbrev main_cst_16 : Ref sig .tc := ⟨.hbm, 70, rfl⟩
abbrev main_v42 : Ref sig .tc := ⟨.hbm, 71, rfl⟩
abbrev main_v43 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S16384 : S_.BroadcastsInDim S16384 (![] : Fin 0 → Fin S16384.rank)
  pads_S2x100x512_S2x128x512_000_0280_000 : S2x100x512.Pads (![0, 0, 0] : Fin 3 → Nat) ![0, 28, 0] ![0, 0, 0] S2x128x512
  h_S_ : 0 < S_.numel
  shapeCasts_S16384_S16384x1 : S16384.ShapeCasts S16384x1
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  shapeCasts_S4096x1_S4096 : S4096x1.ShapeCasts S4096
  iota_S4096x128_d1_w32 : S4096x128.Iotas .tc 32 [1]
  shapeCasts_S4096_S4096x1 : S4096.ShapeCasts S4096x1
  broadcasts_S4096x1_S4096x128 : S4096x1.Broadcasts S4096x128
  natLt_1_32 : 1 < 32
  reduces_S4096x512_S512 : S4096x512.Reduces [0] S512
  shapeCasts_S512_S1x512 : S512.ShapeCasts S1x512
  reduces_S4096x512_S4096 : S4096x512.Reduces [1] S4096
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  shapeCasts_S4096x1_S1x4096x1 : S4096x1.ShapeCasts S1x4096x1
  shapeCasts_S2x16384x1_S2x16384 : S2x16384x1.ShapeCasts S2x16384
  shapeCasts_S2x1x512_S2x512 : S2x1x512.ShapeCasts S2x512
  reducesTo_S2x512_S2_d1 : S2x512.ReducesTo [1] S2
  bcast_S_S2 : S_.BroadcastsInDim S2 (![] : Fin 0 → Fin S2.rank)
  reducesTo_S2x100x512_S2x100_d2 : S2x100x512.ReducesTo [2] S2x100
  bcast_S2x100_S2x100x1_0_1 : S2x100.BroadcastsInDim S2x100x1 (![0, 1] : Fin 2 → Fin S2x100x1.rank)
  bcast_S2x100_S2x1x100_0_2 : S2x100.BroadcastsInDim S2x1x100 (![0, 2] : Fin 2 → Fin S2x1x100.rank)
  bcast_S2x100x1_S2x100x100_0_1_2 : S2x100x1.BroadcastsInDim S2x100x100 (![0, 1, 2] : Fin 3 → Fin S2x100x100.rank)
  bcast_S2x1x100_S2x100x100_0_1_2 : S2x1x100.BroadcastsInDim S2x100x100 (![0, 1, 2] : Fin 3 → Fin S2x100x100.rank)
  bcast_S_S2x100x100 : S_.BroadcastsInDim S2x100x100 (![] : Fin 0 → Fin S2x100x100.rank)
  bcast_S100x100_S2x100x100_1_2 : S100x100.BroadcastsInDim S2x100x100 (![1, 2] : Fin 2 → Fin S2x100x100.rank)
  reducesTo_S2x100x100_S2_d1_2 : S2x100x100.ReducesTo [1, 2] S2
  reducesTo_S2_S_d0 : S2.ReducesTo [0] S_
  dot_S4096x128_S128x512_S4096x512_1_0_0_1_n_n_wf : DotDims.WF S4096x128 S128x512 S4096x512 [1] [0] [0] [1] [] []
  dot_S2x100x512_S2x100x512_S2x100x100_2_2_1_1_0_0_wf : DotDims.WF S2x100x512 S2x100x512 S2x100x100 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x512.size a ≤ S2x16384x512.size a
  hwx0_0 : ∀ i : grid0.Coords, EltTy.bits .f32 = 32 ∨ (Rect.block (s := S2x16384x512) S1x4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S2x128x512.size a
  hwx0_1 : ∀ i : grid0.Coords, EltTy.bits .f32 = 32 ∨ (Rect.block (s := S2x128x512) S1x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S16384x1.size a
  hwx0_2 : ∀ i : grid0.Coords, EltTy.bits .i32 = 32 ∨ (Rect.block (s := S16384x1) S4096x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x1.size a ≤ S2x16384x1.size a
  hwx0_3 : ∀ i : grid0.Coords, EltTy.bits .f32 = 32 ∨ (Rect.block (s := S2x16384x1) S1x4096x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S2x1x512.size a
  hwx0_4 : ∀ i : grid0.Coords, EltTy.bits .f32 = 32 ∨ (Rect.block (s := S2x1x512) S1x1x512.size (cc0_transform_4 i) (hinb0_4 i)).WholeWords (EltTy.packing .f32)

variable [Facts₀]

def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf
def dot_S2x100x512_S2x100x512_S2x100x100_2_2_1_1_0_0 : DotDims S2x100x512 S2x100x512 S2x100x100 where
  lhsContracting := [2]
  rhsContracting := [2]
  lhsNonContracting := [1]
  rhsNonContracting := [1]
  lhsBatch := [0]
  rhsBatch := [0]
  wf := dot_S2x100x512_S2x100x512_S2x100x100_2_2_1_1_0_0_wf

abbrev win0_0 : Pipeline.Window sig grid0 :=
  Pipeline.Window.ofSpec (Memref.whole main_arg0) S1x4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x4096x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x1x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16384x512 : Shape := ⟨3, ![2, 16384, 512]⟩
abbrev S16384 : Shape := ⟨1, ![16384]⟩
abbrev S2x100x512 : Shape := ⟨3, ![2, 100, 512]⟩
abbrev S_ : Shape := ⟨0, ![]⟩
abbrev S16384x1 : Shape := ⟨2, ![16384, 1]⟩
abbrev S2 : Shape := ⟨1, ![2]⟩
abbrev S2x16384 : Shape := ⟨2, ![2, 16384]⟩
abbrev S2x100 : Shape := ⟨2, ![2, 100]⟩
abbrev S2x100x100 : Shape := ⟨3, ![2, 100, 100]⟩
abbrev S2x100x1 : Shape := ⟨3, ![2, 100, 1]⟩
abbrev S2x1x100 : Shape := ⟨3, ![2, 1, 100]⟩
abbrev S100x100 : Shape := ⟨2, ![100, 100]⟩

abbrev nBuf : Space → Nat
  | .hbm => 87
  | .vmem => 0
  | .smem => 0
  | _ => 0

abbrev bufTy : (tb : Table) → Fin (tcTables nBuf tb) → BufTy
  | .hbm, ⟨0, _⟩ => ⟨S2x16384x512, .f32⟩
  | .hbm, ⟨1, _⟩ => ⟨S16384, .i32⟩
  | .hbm, ⟨2, _⟩ => ⟨S2x100x512, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S2x16384x512, .f32⟩
  | .hbm, ⟨12, _⟩ => ⟨S2x16384x512, .f32⟩
  | .hbm, ⟨13, _⟩ => ⟨S2x16384x512, .f32⟩
  | .hbm, ⟨14, _⟩ => ⟨S_, .f32⟩
  | .hbm, ⟨15, _⟩ => ⟨S2, .f32⟩
  | .hbm, ⟨16, _⟩ => ⟨S_, .f32⟩
  | .hbm, ⟨17, _⟩ => ⟨S2, .f32⟩
  | .hbm, ⟨18, _⟩ => ⟨S2, .f32⟩
  | .hbm, ⟨19, _⟩ => ⟨S_, .f32⟩
  | .hbm, ⟨20, _⟩ => ⟨S2, .f32⟩
  | .hbm, ⟨21, _⟩ => ⟨S2, .f32⟩
  | .hbm, ⟨22, _⟩ => ⟨S2x16384x512, .f32⟩
  | .hbm, ⟨23, _⟩ => ⟨S_, .f32⟩
  | .hbm, ⟨24, _⟩ => ⟨S2x16384, .f32⟩
  | .hbm, ⟨25, _⟩ => ⟨S2x16384, .f32⟩
  | .hbm, ⟨26, _⟩ => ⟨S_, .f32⟩
  | .hbm, ⟨27, _⟩ => ⟨S2x16384, .f32⟩
  | .hbm, ⟨28, _⟩ => ⟨S2x16384, .f32⟩
  | .hbm, ⟨29, _⟩ => ⟨S2x16384x512, .f32⟩
  | .hbm, ⟨30, _⟩ => ⟨S_, .f32⟩
  | .hbm, ⟨31, _⟩ => ⟨S2x16384, .f32⟩
  | .hbm, ⟨32, _⟩ => ⟨S2x16384, .f32⟩
  | .hbm, ⟨33, _⟩ => ⟨S_, .f32⟩
  | .hbm, ⟨34, _⟩ => ⟨S2x16384, .f32⟩
  | .hbm, ⟨35, _⟩ => ⟨S2x16384, .f32⟩
  | .hbm, ⟨36, _⟩ => ⟨S2x16384x512, .f32⟩
  | .hbm, ⟨37, _⟩ => ⟨S_, .f32⟩
  | .hbm, ⟨38, _⟩ => ⟨S2x16384, .f32⟩
  | .hbm, ⟨39, _⟩ => ⟨S2x16384, .f32⟩
  | .hbm, ⟨40, _⟩ => ⟨S2x16384, .f32⟩
  | .hbm, ⟨41, _⟩ => ⟨S2x100x512, .f32⟩
  | .hbm, ⟨42, _⟩ => ⟨S_, .f32⟩
  | .hbm, ⟨43, _⟩ => ⟨S2x100, .f32⟩
  | .hbm, ⟨44, _⟩ => ⟨S2x100x100, .f32⟩
  | .hbm, ⟨45, _⟩ => ⟨S2x100x1, .f32⟩
  | .hbm, ⟨46, _⟩ => ⟨S2x1x100, .f32⟩
  | .hbm, ⟨47, _⟩ => ⟨S2x100x100, .f32⟩
  | .hbm, ⟨48, _⟩ => ⟨S2x100x100, .f32⟩
  | .hbm, ⟨49, _⟩ => ⟨S2x100x100, .f32⟩
  | .hbm, ⟨50, _⟩ => ⟨S_, .f32⟩
  | .hbm, ⟨51, _⟩ => ⟨S2x100x100, .f32⟩
  | .hbm, ⟨52, _⟩ => ⟨S2x100x100, .f32⟩
  | .hbm, ⟨53, _⟩ => ⟨S2x100x100, .f32⟩
  | .hbm, ⟨54, _⟩ => ⟨S100x100, .i32⟩
  | .hbm, ⟨55, _⟩ => ⟨S100x100, .i32⟩
  | .hbm, ⟨56, _⟩ => ⟨S100x100, .i1⟩
  | .hbm, ⟨57, _⟩ => ⟨S2x100x100, .i1⟩
  | .hbm, ⟨58, _⟩ => ⟨S_, .f32⟩
  | .hbm, ⟨59, _⟩ => ⟨S2x100x100, .f32⟩
  | .hbm, ⟨60, _⟩ => ⟨S2x100x100, .f32⟩
  | .hbm, ⟨61, _⟩ => ⟨S_, .f32⟩
  | .hbm, ⟨62, _⟩ => ⟨S2, .f32⟩
  | .hbm, ⟨63, _⟩ => ⟨S_, .f32⟩
  | .hbm, ⟨64, _⟩ => ⟨S2, .f32⟩
  | .hbm, ⟨65, _⟩ => ⟨S2, .f32⟩
  | .hbm, ⟨66, _⟩ => ⟨S_, .f32⟩
  | .hbm, ⟨67, _⟩ => ⟨S2, .f32⟩
  | .hbm, ⟨68, _⟩ => ⟨S2, .f32⟩
  | .hbm, ⟨69, _⟩ => ⟨S_, .f32⟩
  | .hbm, ⟨70, _⟩ => ⟨S2, .f32⟩
  | .hbm, ⟨71, _⟩ => ⟨S2, .f32⟩
  | .hbm, ⟨72, _⟩ => ⟨S_, .f32⟩
  | .hbm, ⟨73, _⟩ => ⟨S2, .f32⟩
  | .hbm, ⟨74, _⟩ => ⟨S2, .f32⟩
  | .hbm, ⟨75, _⟩ => ⟨S_, .f32⟩
  | .hbm, ⟨76, _⟩ => ⟨S2, .f32⟩
  | .hbm, ⟨77, _⟩ => ⟨S2, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_call1_v0 : Ref sig .tc := ⟨.hbm, 29, rfl⟩
abbrev main_call1_cst : Ref sig .tc := ⟨.hbm, 30, rfl⟩
abbrev main_call1_v1 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_cst_11 : Ref sig .tc := ⟨.hbm, 66, rfl⟩
abbrev main_v44 : Ref sig .tc := ⟨.hbm, 67, rfl⟩
abbrev main_v45 : Ref sig .tc := ⟨.hbm, 68, rfl⟩
abbrev main_cst_12 : Ref sig .tc := ⟨.hbm, 69, rfl⟩
abbrev main_v46 : Ref sig .tc := ⟨.hbm, 70, rfl⟩
abbrev main_v47 : Ref sig .tc := ⟨.hbm, 71, rfl⟩
abbrev main_cst_13 : Ref sig .tc := ⟨.hbm, 72, rfl⟩
abbrev main_v48 : Ref sig .tc := ⟨.hbm, 73, rfl⟩
abbrev main_v49 : Ref sig .tc := ⟨.hbm, 74, rfl⟩
abbrev main_cst_14 : Ref sig .tc := ⟨.hbm, 75, rfl⟩
abbrev main_v50 : Ref sig .tc := ⟨.hbm, 76, rfl⟩
abbrev main_v51 : Ref sig .tc := ⟨.hbm, 77, rfl⟩
abbrev main_cst_15 : Ref sig .tc := ⟨.hbm, 78, rfl⟩
abbrev main_v52 : Ref sig .tc := ⟨.hbm, 79, rfl⟩
abbrev main_cst_16 : Ref sig .tc := ⟨.hbm, 80, rfl⟩
abbrev main_v53 : Ref sig .tc := ⟨.hbm, 81, rfl⟩
abbrev main_cst_17 : Ref sig .tc := ⟨.hbm, 82, rfl⟩
abbrev main_v54 : Ref sig .tc := ⟨.hbm, 83, rfl⟩
abbrev main_cst_18 : Ref sig .tc := ⟨.hbm, 84, rfl⟩
abbrev main_v55 : Ref sig .tc := ⟨.hbm, 85, rfl⟩
abbrev main_v56 : Ref sig .tc := ⟨.hbm, 86, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  reducesTo_S2x16384x512_S2_d1_2 : S2x16384x512.ReducesTo [1, 2] S2
  h_S_ : 0 < S_.numel
  bcast_S_S2 : S_.BroadcastsInDim S2 (![] : Fin 0 → Fin S2.rank)
  reducesTo_S2x16384x512_S2x16384_d2 : S2x16384x512.ReducesTo [2] S2x16384
  bcast_S_S2x16384 : S_.BroadcastsInDim S2x16384 (![] : Fin 0 → Fin S2x16384.rank)
  reducesTo_S2x100x512_S2x100_d2 : S2x100x512.ReducesTo [2] S2x100
  bcast_S2x100_S2x100x1_0_1 : S2x100.BroadcastsInDim S2x100x1 (![0, 1] : Fin 2 → Fin S2x100x1.rank)
  bcast_S2x100_S2x1x100_0_2 : S2x100.BroadcastsInDim S2x1x100 (![0, 2] : Fin 2 → Fin S2x1x100.rank)
  bcast_S2x100x1_S2x100x100_0_1_2 : S2x100x1.BroadcastsInDim S2x100x100 (![0, 1, 2] : Fin 3 → Fin S2x100x100.rank)
  bcast_S2x1x100_S2x100x100_0_1_2 : S2x1x100.BroadcastsInDim S2x100x100 (![0, 1, 2] : Fin 3 → Fin S2x100x100.rank)
  bcast_S_S2x100x100 : S_.BroadcastsInDim S2x100x100 (![] : Fin 0 → Fin S2x100x100.rank)
  bcast_S100x100_S2x100x100_1_2 : S100x100.BroadcastsInDim S2x100x100 (![1, 2] : Fin 2 → Fin S2x100x100.rank)
  reducesTo_S2x100x100_S2_d1_2 : S2x100x100.ReducesTo [1, 2] S2
  reducesTo_S2_S_d0 : S2.ReducesTo [0] S_
  gather_S2x100x512_S16384x1_S2x16384x512_02_1_n_n_1_1_21512_wf : GatherDims.WF S2x100x512 S16384x1 S2x16384x512 [0, 2] [1] [] [1] [] 1 ![2, 1, 512]
  dot_S2x100x512_S2x100x512_S2x100x100_2_2_1_1_0_0_wf : DotDims.WF S2x100x512 S2x100x512 S2x100x100 [2] [2] [1] [1] [0] [0]

variable [Facts₀]

def gather_S2x100x512_S16384x1_S2x16384x512_02_1_n_n_1_1_21512 : GatherDims S2x100x512 S16384x1 S2x16384x512 where
  offsetDims := [0, 2]
  collapsedSliceDims := [1]
  operandBatchingDims := []
  startIndicesBatchingDims := []
  startIndexMap := [1]
  indexVectorDim := 1
  sliceSizes := ![2, 1, 512]
  wf := gather_S2x100x512_S16384x1_S2x16384x512_02_1_n_n_1_1_21512_wf
def dot_S2x100x512_S2x100x512_S2x100x100_2_2_1_1_0_0 : DotDims S2x100x512 S2x100x512 S2x100x100 where
  lhsContracting := [2]
  rhsContracting := [2]
  lhsNonContracting := [1]
  rhsNonContracting := [1]
  lhsBatch := [0]
  rhsBatch := [0]
  wf := dot_S2x100x512_S2x100x512_S2x100x100_2_2_1_1_0_0_wf

class Facts : Prop extends Facts₀ where

variable [Facts]
-- ==== Proof.KPieces.lean ====
/-
  What each case of the body leaves in the two output blocks, as values of the loaded blocks: the similarity block is
  one whole store; the accumulator block is, at a view's first tile, a store of zeros read back and overwritten by
  zeros plus the tile's column sums, and at later tiles what the block held plus the tile's column sums.
-/
import proofs.«426368_j30855045054677_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- At a view's first tile the similarity block is its one store's value. -/
theorem simsPiece_A (c : Dev nD) (i : grid0.Coords) (a2 : Memref sig .tc .vmem S1x4096x512 .f32) (h2 : a2.IsWhole)
    (a3 : Memref sig .tc .vmem S1x128x512 .f32) (h3 : a3.IsWhole) (a4 : Memref sig .tc .vmem S4096x1 .i32) (h4 : a4.IsWhole)
    (a5 : Memref sig .tc .vmem S1x4096x1 .f32) (h5 : a5.IsWhole) (a6 : Memref sig .tc .vmem S1x1x512 .f32) (h6 : a6.IsWhole)
    (hc : cond0_0 i) (x0 : Vec F S1x4096x512 .f32) (x1 : Vec F S1x128x512 .f32) (x2 : Vec F S4096x1 .i32) :
    out0_A_3 c i a2 h2 a3 h3 a4 h4 a5 h5 a6 h6 hc x0 x1 x2
      = k0_pay1 (k0_pay3 x0) (k0_pay4 x1 x2) (k0_pay6 x0) (k0_pay7 x1 x2) (Scalar.ofBits .f32 0x322BCC77#32) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz3]
  simp only [View.readAt_eq_ld, h2.read_unread, h3.read_unread, h4.read_unread, View.ld_unit_zero (S := S1x4096x512) hz3,
    View.ld_unit_zero (S := S1x128x512) hz3, View.ld_unit_zero (S := S4096x1) hz2]

/-- At a view's first tile the accumulator block is the zero block plus the tile's column sums. -/
theorem accPiece_A (c : Dev nD) (i : grid0.Coords) (a2 : Memref sig .tc .vmem S1x4096x512 .f32) (h2 : a2.IsWhole)
    (a3 : Memref sig .tc .vmem S1x128x512 .f32) (h3 : a3.IsWhole) (a4 : Memref sig .tc .vmem S4096x1 .i32) (h4 : a4.IsWhole)
    (a5 : Memref sig .tc .vmem S1x4096x1 .f32) (h5 : a5.IsWhole) (a6 : Memref sig .tc .vmem S1x1x512 .f32) (h6 : a6.IsWhole)
    (hc : cond0_0 i) (x0 : Vec F S1x4096x512 .f32) (x1 : Vec F S1x128x512 .f32) (x2 : Vec F S4096x1 .i32) :
    out0_A_4 c i a2 h2 a3 h3 a4 h4 a5 h5 a6 h6 hc x0 x1 x2 = k0_pay5 x0 x1 x2 (k0_pay2 (F := F)) := by
  unfold out0_A_4
  rw [View.read_writes_eq_canon _ _ _ (cover0_A_4 c i a2 h2 a3 h3 a4 h4 a5 h5 a6 h6 hc x0 x1 x2)]
  unfold kernelRun0_A
  dsimp only
  sl_unfold_words
  rw [View.canon_cons_unit_zero (S := S1x1x512) hz3, View.readCov_unit_zero (S := S1x1x512) _ hz3]
  simp only [View.readAt_eq_ld, h2.read_unread, h3.read_unread, h4.read_unread, View.ld_unit_zero (S := S1x4096x512) hz3,
    View.ld_unit_zero (S := S1x128x512) hz3, View.ld_unit_zero (S := S4096x1) hz2]

/-- At a later tile the similarity block is again its one store's value. -/
theorem simsPiece_B (c : Dev nD) (i : grid0.Coords) (a2 : Memref sig .tc .vmem S1x4096x512 .f32) (h2 : a2.IsWhole)
    (a3 : Memref sig .tc .vmem S1x128x512 .f32) (h3 : a3.IsWhole) (a4 : Memref sig .tc .vmem S4096x1 .i32) (h4 : a4.IsWhole)
    (a5 : Memref sig .tc .vmem S1x4096x1 .f32) (h5 : a5.IsWhole) (a6 : Memref sig .tc .vmem S1x1x512 .f32) (h6 : a6.IsWhole)
    (hc : ¬cond0_0 i) (x0 : Vec F S1x4096x512 .f32) (x1 : Vec F S1x128x512 .f32) (x2 : Vec F S4096x1 .i32)
    (xo : Vec F S1x1x512 .f32) :
    out0_B_3 c i a2 h2 a3 h3 a4 h4 a5 h5 a6 h6 hc x0 x1 x2 xo
      = k0_pay1 (k0_pay3 x0) (k0_pay4 x1 x2) (k0_pay6 x0) (k0_pay7 x1 x2) (Scalar.ofBits .f32 0x322BCC77#32) := by
  unfold out0_B_3
  rw [View.read_writes_eq_canon _ _ _ (cover0_B_3 c i a2 h2 a3 h3 a4 h4 a5 h5 a6 h6 hc x0 x1 x2 xo)]
  unfold kernelRun0_B
  dsimp only
  sl_unfold_words
  rw [View.canon_unit_zero hz3]
  simp only [View.readAt_eq_ld, h2.read_unread, h3.read_unread, h4.read_unread, View.ld_unit_zero (S := S1x4096x512) hz3,
    View.ld_unit_zero (S := S1x128x512) hz3, View.ld_unit_zero (S := S4096x1) hz2]

/-- At a later tile the accumulator block is what it held plus the tile's column sums. -/
theorem accPiece_B (c : Dev nD) (i : grid0.Coords) (a2 : Memref sig .tc .vmem S1x4096x512 .f32) (h2 : a2.IsWhole)
    (a3 : Memref sig .tc .vmem S1x128x512 .f32) (h3 : a3.IsWhole) (a4 : Memref sig .tc .vmem S4096x1 .i32) (h4 : a4.IsWhole)
    (a5 : Memref sig .tc .vmem S1x4096x1 .f32) (h5 : a5.IsWhole) (a6 : Memref sig .tc .vmem S1x1x512 .f32) (h6 : a6.IsWhole)
    (hc : ¬cond0_0 i) (x0 : Vec F S1x4096x512 .f32) (x1 : Vec F S1x128x512 .f32) (x2 : Vec F S4096x1 .i32)
    (xo : Vec F S1x1x512 .f32) :
    out0_B_4 c i a2 h2 a3 h3 a4 h4 a5 h5 a6 h6 hc x0 x1 x2 xo = k0_pay5 x0 x1 x2 xo := by
  unfold out0_B_4
  rw [View.read_writes_eq_canon _ _ _ (cover0_B_4 c i a2 h2 a3 h3 a4 h4 a5 h5 a6 h6 hc x0 x1 x2 xo)]
  unfold kernelRun0_B
  dsimp only
  sl_unfold_words
  rw [View.canon_unit_zero hz3]
  simp only [View.readAt_eq_ld, h2.read_unread, h3.read_unread, h4.read_unread, h6.read_unread,
    View.ld_unit_zero (S := S1x4096x512) hz3, View.ld_unit_zero (S := S1x128x512) hz3, View.ld_unit_zero (S := S4096x1) hz2,
    View.ld_unit_zero (S := S1x1x512) hz3]

end Cert.KernelIdeal.Pieces

end
-- ==== Proof.Spec.lean ====
/-
  The mathematics both programs compute, over the extended reals, with no program in sight.

  For each view v and sample b the centre is the anchor row of the sample's class, c(v,b,·) = anchor(v, lab b, ·).
  The similarity is the cosine of the feature row and its centre with each norm floored at ε,
      sims(v,b) = (∑_d x_d c_d) / (max (√∑_d x_d²) ε · max (√∑_d c_d²) ε),
  and the centre term of the loss sums the squared distances (x_d − c_d)² over all samples and lanes of a view.
  Also here: a one-hot weighted sum picks one term, and a sum over rows cut into equal tiles is the sum over all rows.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.AnchorLoss

/-- The floor ε put under each norm: the f32 word of 1e-8, read exactly. -/
def eps : EReal := Ideal.ofBits .f32 0x322BCC77#32

/-- Cosine similarity of a feature row `x` and a centre row `c`, each norm floored at ε. -/
def cosRow (x c : Fin 512 → EReal) : EReal :=
  Ideal.div (∑ d, x d * c d) (max (Ideal.sqrt (∑ d, x d * x d)) eps * max (Ideal.sqrt (∑ d, c d * c d)) eps)

/-- One lane's squared distance between a feature row and a centre row. -/
def sqDist (x c : Fin 512 → EReal) (d : Fin 512) : EReal := (x d - c d) * (x d - c d)

/-- The class of sample `b`: its label read as a signed integer and clamped into the table's rows. -/
def lab (l : (⟨1, ![16384]⟩ : Shape).Idx → BitVec 32) (b : Fin 16384) : Fin 100 :=
  ⟨min (l (ix1 b)).toInt.toNat 99, by omega⟩

/-- Every label is a class of the table: between 0 and 99, read as a signed integer. -/
def InRange (l : (⟨1, ![16384]⟩ : Shape).Idx → BitVec 32) : Prop :=
  ∀ b : Fin 16384, 0 ≤ (l (ix1 b)).toInt ∧ (l (ix1 b)).toInt < 100

/-- Row `b` of view `v` of the features. -/
def featRow (x : (⟨3, ![2, 16384, 512]⟩ : Shape).Idx → EReal) (v : Fin 2) (b : Fin 16384) : Fin 512 → EReal :=
  fun d => x (ix3 v b d)

/-- The centre of sample `b` in view `v`: the anchor row of the sample's class. -/
def centre (a : (⟨3, ![2, 100, 512]⟩ : Shape).Idx → EReal) (l : (⟨1, ![16384]⟩ : Shape).Idx → BitVec 32)
    (v : Fin 2) (b : Fin 16384) : Fin 512 → EReal :=
  fun d => a (ix3 v (lab l b) d)

/-- The similarity of sample `b` in view `v`. -/
def simsAt (x : (⟨3, ![2, 16384, 512]⟩ : Shape).Idx → EReal) (l : (⟨1, ![16384]⟩ : Shape).Idx → BitVec 32)
    (a : (⟨3, ![2, 100, 512]⟩ : Shape).Idx → EReal) (v : Fin 2) (b : Fin 16384) : EReal :=
  cosRow (featRow x v b) (centre a l v b)

/-- The summed squared distance of a view: over every sample and every lane. -/
def distSum (x : (⟨3, ![2, 16384, 512]⟩ : Shape).Idx → EReal) (l : (⟨1, ![16384]⟩ : Shape).Idx → BitVec 32)
    (a : (⟨3, ![2, 100, 512]⟩ : Shape).Idx → EReal) (v : Fin 2) : EReal :=
  ∑ b : Fin 16384, ∑ d : Fin 512, sqDist (featRow x v b) (centre a l v b) d

/-- A sum weighted by the indicator of one index is the term at that index. -/
theorem sum_indicator_mul {n : Nat} (k : Fin n) (w f : Fin n → EReal) (hk : w k = 1) (h0 : ∀ c, c ≠ k → w c = 0) :
    ∑ c, w c * f c = f k := by
  rw [Finset.sum_eq_single k (fun c _ hc => by rw [h0 c hc, zero_mul]) (fun h => absurd (Finset.mem_univ k) h), hk, one_mul]

/-- Row `r` of tile `j` when 16384 rows are cut into four tiles of 4096. -/
def tileRow (j : Fin 4) (r : Fin 4096) : Fin 16384 := ⟨j.val * 4096 + r.val, by omega⟩

/-- Summing tile by tile, row by row inside a tile, is summing over all rows. -/
theorem sum_tiles {M : Type*} [AddCommMonoid M] (f : Fin 16384 → M) :
    ∑ j : Fin 4, ∑ r : Fin 4096, f (tileRow j r) = ∑ b : Fin 16384, f b := by
  rw [← Fintype.sum_prod_type' (f := fun j r => f (tileRow j r))]
  refine Fintype.sum_equiv (finProdFinEquiv (m := 4) (n := 4096) |>.trans (finCongr (by norm_num))) _ _ (fun p => ?_)
  refine congrArg f (Fin.ext ?_)
  simp [tileRow, finProdFinEquiv, Nat.mul_comm]
  omega

end Cert.AnchorLoss

end
-- ==== Proof.KBlocks.lean ====
/-
  The blocks the body loads, read at one element from the launch arrays: a feature tile is rows of one view of the
  features; the table block is one view of the anchors padded with zero rows up to 128; the label tile is the labels
  clipped into the table's rows.
-/
import proofs.«426368_j30855045054677_3_alg».proof.Proof.Gen.KernelIdeal.Frame
import proofs.«426368_j30855045054677_3_alg».proof.Proof.Spec
import Idealize.ShloMosaic.Lib.Pipeline.Value
import Idealize.ShloMosaic.Lib.StableHlo.Run
import Idealize.ShloMosaic.Lib.KernelVsHost
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen Cert.AnchorLoss

variable {F : FTy → Type} [FloatOps F]
variable (m : (ℓ : Loc nD τ sig) → Buf (Elt F) ℓ)

/-- The padded table as the region finds it. -/
theorem paddedTable_eq (c : Dev nD) :
    (V m c main_v1 : S2x128x512.Idx → F .f32)
      = pad S2x128x512 ![0, 0, 0] ![0, 28, 0] ![0, 0, 0] (m ((c : Thread nD τ).loc main_arg2))
          (sitofp .f32 (constantI S_ 32 0#32) : S_.Idx → F .f32) pads_S2x100x512_S2x128x512_000_0280_000 h_S_ := by
  dsimp only [V, V0]
  simp only [hostOps0, hostOps0_1, hostOps0_2, hostOps0_3, hostOps0_4, List.flatten_cons, List.flatten_nil, List.append_nil,
    List.cons_append, List.nil_append]
  after_results
  rfl

/-- The clipped labels, as a column, as the region finds them. -/
theorem clippedLabels_eq (c : Dev nD) :
    (V m c main_v2 : S16384x1.Idx → BitVec 32)
      = shapeCast S16384x1 (minsi (broadcastInDim S16384 ![] bcast_S_S16384 (constantI S_ 32 99#32))
          (maxsi (broadcastInDim S16384 ![] bcast_S_S16384 (constantI S_ 32 0#32)) (m ((c : Thread nD τ).loc main_arg1))))
          shapeCasts_S16384_S16384x1 := by
  dsimp only [V, V0]
  simp only [hostOps0, hostOps0_1, hostOps0_2, hostOps0_3, hostOps0_4, List.flatten_cons, List.flatten_nil, List.append_nil,
    List.cons_append, List.nil_append]
  after_results
  rfl

/-- The view a grid point works on, and its tile of rows. -/
def viewOf (t : Fin cfg0.N) : Fin 2 := ⟨t.val / 4, by have := lt_of_lt_of_eq t.isLt (show cfg0.N = 8 from N_0); omega⟩
def tileOf (t : Fin cfg0.N) : Fin 4 := ⟨t.val % 4, by omega⟩

/-- Where each window's block sits at a grid point (decided once over the eight points). -/
theorem idx_feat : ∀ t : Fin cfg0.N, win0_0.index t (0 : Fin 3) = t.val / 4 ∧ win0_0.index t (1 : Fin 3) = t.val % 4 ∧ win0_0.index t (2 : Fin 3) = 0 :=
  (by decide +kernel : ∀ t : Fin grid0.N, win0_0.index t (0 : Fin 3) = t.val / 4 ∧ win0_0.index t (1 : Fin 3) = t.val % 4 ∧ win0_0.index t (2 : Fin 3) = 0)
theorem idx_table : ∀ t : Fin cfg0.N, win0_1.index t (0 : Fin 3) = t.val / 4 ∧ win0_1.index t (1 : Fin 3) = 0 ∧ win0_1.index t (2 : Fin 3) = 0 :=
  (by decide +kernel : ∀ t : Fin grid0.N, win0_1.index t (0 : Fin 3) = t.val / 4 ∧ win0_1.index t (1 : Fin 3) = 0 ∧ win0_1.index t (2 : Fin 3) = 0)
theorem idx_label : ∀ t : Fin cfg0.N, win0_2.index t (0 : Fin 2) = t.val % 4 ∧ win0_2.index t (1 : Fin 2) = 0 :=
  (by decide +kernel : ∀ t : Fin grid0.N, win0_2.index t (0 : Fin 2) = t.val % 4 ∧ win0_2.index t (1 : Fin 2) = 0)

/-- A feature tile's element (0, r, d) is the features' at (view, 4096·tile + r, d). -/
theorem featBlock_apply (c : Dev nD) (t : Fin cfg0.N) (r : Fin 4096) (d : Fin 512) :
    (iblk m c 0 t : Vec F S1x4096x512 .f32) (ix3 0 r d)
      = m ((c : Thread nD τ).loc main_arg0) (ix3 (viewOf t) (tileRow (tileOf t) r) d) := by
  unfold iblk
  rw [View.read_apply]
  show V m c main_arg0 _ = _
  refine (congrFun (V_main_arg0 m c) _).trans (congrArg _ (funext fun a => Fin.ext ?_))
  match a with
  | ⟨0, _⟩ => show win0_0.index t 0 * 1 + 1 * 0 = t.val / 4; rw [(idx_feat t).1]; omega
  | ⟨1, _⟩ => show win0_0.index t 1 * 4096 + 1 * r.val = t.val % 4 * 4096 + r.val; rw [(idx_feat t).2.1]; omega
  | ⟨2, _⟩ => show win0_0.index t 2 * 512 + 1 * d.val = d.val; rw [(idx_feat t).2.2]; omega

/-- A table block's element (0, k, d) is the padded table's at (view, k, d). -/
theorem tableBlock_apply (c : Dev nD) (t : Fin cfg0.N) (k : Fin 128) (d : Fin 512) :
    (iblk m c 1 t : Vec F S1x128x512 .f32) (ix3 0 k d)
      = (V m c main_v1 : S2x128x512.Idx → F .f32) (ix3 (viewOf t) k d) := by
  unfold iblk
  rw [View.read_apply]
  show V m c main_v1 _ = _
  refine congrArg _ (funext fun a => Fin.ext ?_)
  match a with
  | ⟨0, _⟩ => show win0_1.index t 0 * 1 + 1 * 0 = t.val / 4; rw [(idx_table t).1]; omega
  | ⟨1, _⟩ => show win0_1.index t 1 * 128 + 1 * k.val = k.val; rw [(idx_table t).2.1]; omega
  | ⟨2, _⟩ => show win0_1.index t 2 * 512 + 1 * d.val = d.val; rw [(idx_table t).2.2]; omega

/-- A label tile's element (r, 0) is the clipped label column's at (4096·tile + r, 0). -/
theorem labelBlock_apply (c : Dev nD) (t : Fin cfg0.N) (r : Fin 4096) :
    (iblk m c 2 t : Vec F S4096x1 .i32) (ix2 r 0)
      = (V m c main_v2 : S16384x1.Idx → BitVec 32) (ix2 (tileRow (tileOf t) r) 0) := by
  unfold iblk
  rw [View.read_apply]
  show V m c main_v2 _ = _
  refine congrArg _ (funext fun a => Fin.ext ?_)
  match a with
  | ⟨0, _⟩ => show win0_2.index t 0 * 4096 + 1 * r.val = t.val % 4 * 4096 + r.val; rw [(idx_label t).1]; omega
  | ⟨1, _⟩ => show win0_2.index t 1 * 1 + 1 * 0 = 0; rw [(idx_label t).2]

/-- Below row 100 the padded table is the anchors. -/
theorem paddedTable_apply (c : Dev nD) (v : Fin 2) (k : Fin 100) (d : Fin 512) :
    (V m c main_v1 : S2x128x512.Idx → F .f32) (ix3 v (Fin.castLE (by norm_num) k) d)
      = m ((c : Thread nD τ).loc main_arg2) (ix3 v k d) := by
  rw [paddedTable_eq]
  refine pad_apply_of_inside _ _ _ _ _ _ _ _ (ix3 v k d) (fun a => ?_)
  match a with
  | ⟨0, _⟩ => show v.val = 0 + v.val * (0 + 1); omega
  | ⟨1, _⟩ => show k.val = 0 + k.val * (0 + 1); omega
  | ⟨2, _⟩ => show d.val = 0 + d.val * (0 + 1); omega

/-- A signed word between 0 and 99 is unchanged by the clip to [0, 99]. -/
theorem clip_of_inRange (w : BitVec 32) (h0 : 0 ≤ w.toInt) (h1 : w.toInt < 100) :
    IntOp.minsi 99#32 (IntOp.maxsi 0#32 w) = w := by
  have e0 : (0#32 : BitVec 32).toInt = 0 := by decide
  have e99 : (99#32 : BitVec 32).toInt = 99 := by decide
  have hmax : IntOp.maxsi 0#32 w = w := by
    unfold IntOp.maxsi
    rw [if_neg]
    simp only [BitVec.slt, e0, decide_eq_true_eq]; omega
  rw [hmax]
  unfold IntOp.minsi
  rw [if_neg]
  simp only [BitVec.slt, e99, decide_eq_true_eq]; omega

/-- A non-negative signed word is the word of its value. -/
theorem word_eq_ofNat (w : BitVec 32) (h0 : 0 ≤ w.toInt) : w = BitVec.ofNat 32 w.toInt.toNat := by
  apply BitVec.eq_of_toNat_eq
  rw [BitVec.toNat_ofNat]
  have hlt := w.isLt
  rw [BitVec.toInt_eq_toNat_cond] at h0 ⊢
  split at h0 <;> rename_i hc
  · rw [if_pos hc]; simp only [Int.toNat_natCast]; exact (Nat.mod_eq_of_lt hlt).symm
  · exfalso; omega

/-- The clipped label column at (b, 0): the clip of label b. -/
theorem clippedLabel_apply (c : Dev nD) (b : Fin 16384) :
    (V m c main_v2 : S16384x1.Idx → BitVec 32) (ix2 b 0)
      = IntOp.minsi 99#32 (IntOp.maxsi 0#32 (m ((c : Thread nD τ).loc main_arg1) (ix1 b))) := by
  rw [clippedLabels_eq]
  refine (shapeCast_apply _ _ (ix2 b 0) (ix1 b) ?_).trans rfl
  rw [Shape.rowMajor_val_one, Shape.rowMajor_val_two]
  show b.val = b.val * 1 + 0
  omega

end Cert.KernelIdeal.Blocks

end
-- ==== Proof.KPayload.lean ====
/-
  The body's stored values read at one element, over the extended reals, in terms of the blocks the body loads:
  the gathered centre is the table row the label names (a one-hot row times the table), the similarity block holds the
  floored cosine of a feature row and its centre, and the accumulator block grows by the column sums of the squared
  distances.
-/
import proofs.«426368_j30855045054677_3_alg».proof.Proof.Gen.KernelIdeal.Skeleton
import proofs.«426368_j30855045054677_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Cert.AnchorLoss
open Idealize.ShloMosaic Idealize.ShloMosaic.ValueIdx

/-! ## A column [a, 1]: the layout operations that make it and spread it, read at an index -/

/-- A vector [a] cast to the column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] cast to the vector [a] reads, at i, the column at (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column [a, 1] broadcast along its rows to [a, b] reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two lane sums of a [4096, 512] block -/

/-- The sum over the lanes of row r. -/
theorem rowSum_apply (v : FVec Ideal S4096x512 .f32) (h : S4096x512.Reduces [1] S4096) (hφ : FKind.Formats .f32)
    (hacc : (0x00000000#32 : BitVec 32) = FKind.add.neutral .f32 hφ) (r : Fin 4096) :
    multiReduction .add [1] S4096 v 0x00000000#32 h hφ hacc (ix1 r) = ∑ d : Fin 512, v (ix2 r d) := by
  refine (Ideal.multiReduction_add_single v 0x00000000#32 h hφ hacc (ix1 r)).trans ?_
  refine Finset.sum_congr rfl fun d _ => congrArg v ?_
  funext a
  match a with
  | ⟨0, _⟩ => rfl
  | ⟨1, _⟩ => rfl

/-- The sum over the rows of lane d. -/
theorem colSum_apply (v : FVec Ideal S4096x512 .f32) (h : S4096x512.Reduces [0] S512) (hφ : FKind.Formats .f32)
    (hacc : (0x00000000#32 : BitVec 32) = FKind.add.neutral .f32 hφ) (d : Fin 512) :
    multiReduction .add [0] S512 v 0x00000000#32 h hφ hacc (ix1 d) = ∑ r : Fin 4096, v (ix2 r d) := by
  refine (Ideal.multiReduction_add_single v 0x00000000#32 h hφ hacc (ix1 d)).trans ?_
  refine Finset.sum_congr rfl fun r _ => congrArg v ?_
  funext a
  match a with
  | ⟨0, _⟩ => rfl
  | ⟨1, _⟩ => rfl

/-! ## The product of the one-hot rows with the table, read at an index -/

theorem lhs_onehot_0 (i : S4096x512.Idx) (q : dot_S4096x128_S128x512_S4096x512_1_0_0_1_n_n.contr.Idx) :
    (dot_S4096x128_S128x512_S4096x512_1_0_0_1_n_n.lhsIdx i q 0).val = (i 0).val := by
  unfold DotDims.lhsIdx
  rw [dif_neg (show ¬(0 : Fin S4096x128.rank) ∈ dot_S4096x128_S128x512_S4096x512_1_0_0_1_n_n.lhsBatch by decide), dif_pos (show (0 : Fin S4096x128.rank) ∈ dot_S4096x128_S128x512_S4096x512_1_0_0_1_n_n.lhsNonContracting by decide)]
  rfl
theorem lhs_onehot_1 (i : S4096x512.Idx) (q : dot_S4096x128_S128x512_S4096x512_1_0_0_1_n_n.contr.Idx) :
    (dot_S4096x128_S128x512_S4096x512_1_0_0_1_n_n.lhsIdx i q 1).val = (q ⟨0, by decide⟩).val :=
  dot_S4096x128_S128x512_S4096x512_1_0_0_1_n_n.lhsIdx_val_of_single rfl i q
theorem rhs_table_0 (i : S4096x512.Idx) (q : dot_S4096x128_S128x512_S4096x512_1_0_0_1_n_n.contr.Idx) :
    (dot_S4096x128_S128x512_S4096x512_1_0_0_1_n_n.rhsIdx i q 0).val = (q ⟨0, by decide⟩).val :=
  dot_S4096x128_S128x512_S4096x512_1_0_0_1_n_n.rhsIdx_val_of_single rfl i q
theorem rhs_table_1 (i : S4096x512.Idx) (q : dot_S4096x128_S128x512_S4096x512_1_0_0_1_n_n.contr.Idx) :
    (dot_S4096x128_S128x512_S4096x512_1_0_0_1_n_n.rhsIdx i q 1).val = (i 1).val := by
  unfold DotDims.rhsIdx
  rw [dif_neg (show ¬(1 : Fin S128x512.rank) ∈ dot_S4096x128_S128x512_S4096x512_1_0_0_1_n_n.rhsBatch by decide), dif_pos (show (1 : Fin S128x512.rank) ∈ dot_S4096x128_S128x512_S4096x512_1_0_0_1_n_n.rhsNonContracting by decide)]
  rfl

/-- The product into the zero block at (r, d): the sum over the 128 table rows c of L(r, c) · R(c, d). -/
theorem matmul_apply_ix (L : FVec Ideal S4096x128 .f32) (R : FVec Ideal S128x512 .f32) (r : Fin 4096) (d : Fin 512) :
    matmul dot_S4096x128_S128x512_S4096x512_1_0_0_1_n_n (some .fp32) L R (constant (F := Ideal) S4096x512 .f32 0x00000000#32) (ix2 r d)
      = ∑ c : Fin 128, L (ix2 r c) * R (ix2 c d) := by
  refine (Ideal.matmul_constant_zero_apply dot_S4096x128_S128x512_S4096x512_1_0_0_1_n_n (some .fp32) L R (ix2 r d)).trans ?_
  rw [← Equiv.sum_comp (contrEquiv1 dot_S4096x128_S128x512_S4096x512_1_0_0_1_n_n 128 rfl rfl).symm]
  refine Finset.sum_congr rfl fun c _ => ?_
  have hc := contrEquiv1_symm_val dot_S4096x128_S128x512_S4096x512_1_0_0_1_n_n 128 rfl rfl c
  have el : dot_S4096x128_S128x512_S4096x512_1_0_0_1_n_n.lhsIdx (ix2 r d) ((contrEquiv1 dot_S4096x128_S128x512_S4096x512_1_0_0_1_n_n 128 rfl rfl).symm c) = ix2 r c := funext fun a => Fin.ext (by
    match a with
    | ⟨0, _⟩ => exact lhs_onehot_0 _ _
    | ⟨1, _⟩ => exact (lhs_onehot_1 _ _).trans hc)
  have er : dot_S4096x128_S128x512_S4096x512_1_0_0_1_n_n.rhsIdx (ix2 r d) ((contrEquiv1 dot_S4096x128_S128x512_S4096x512_1_0_0_1_n_n 128 rfl rfl).symm c) = ix2 c d := funext fun a => Fin.ext (by
    match a with
    | ⟨0, _⟩ => exact (rhs_table_0 _ _).trans hc
    | ⟨1, _⟩ => exact rhs_table_1 _ _)
  rw [el, er]

/-! ## The one-hot weight -/

/-- The label column spread over the 128 columns reads row r's label word everywhere in row r. -/
theorem labelBlock_apply (x2 : IVec S4096x1 32) (h1 : S4096x1.ShapeCasts S4096x1) (h2 : S4096x1.ShapeCasts S4096)
    (h3 : S4096.ShapeCasts S4096x1) (h4 : S4096x1.Broadcasts S4096x128) (r : Fin 4096) (c : Fin 128) :
    broadcastTo S4096x128 (shapeCast S4096x1 (shapeCast S4096 (shapeCast S4096x1 x2 h1) h2) h3) h4 (ix2 r c)
      = x2 (ix2 r 0) := by
  refine (broadcastTo_a1_ab_apply _ h4 r c).trans ?_
  refine (shapeCast_a_a1_apply _ h3 r 0).trans ?_
  refine (shapeCast_a1_a_apply _ h2 r).trans ?_
  rw [shapeCast_self]

/-- The column counter at (r, c) is the word of c. -/
theorem colIota_apply (h : S4096x128.Iotas .tc 32 [1]) (r : Fin 4096) (c : Fin 128) :
    iota .tc S4096x128 32 [1] h (ix2 r c) = BitVec.ofNat 32 c.val :=
  iota_single_apply .tc S4096x128 32 1 h (ix2 r c)

/-- Equal words weigh 1 … -/
theorem weight_of_eq (a b : BitVec 32) (h : a = b) :
    (FloatOps.sitofp (F := Ideal) .f32 ((IntOp.cmpi .eq a b).setWidth 32) : Ideal .f32) = 1 := by
  subst h
  have e : IntOp.cmpi .eq a a = 1#1 := by simp [IntOp.cmpi]
  rw [e]
  show ((((1#1 : BitVec 1).setWidth 32).toInt : ℝ) : EReal) = 1
  have e2 : ((1#1 : BitVec 1).setWidth 32).toInt = 1 := by decide
  rw [e2]; simp

/-- … and different words weigh 0. -/
theorem weight_of_ne (a b : BitVec 32) (h : a ≠ b) :
    (FloatOps.sitofp (F := Ideal) .f32 ((IntOp.cmpi .eq a b).setWidth 32) : Ideal .f32) = 0 := by
  have e : IntOp.cmpi .eq a b = 0#1 := by
    show BitVec.ofBool (a == b) = 0#1
    rw [beq_eq_false_iff_ne.mpr h]; rfl
  rw [e]
  show ((((0#1 : BitVec 1).setWidth 32).toInt : ℝ) : EReal) = 0
  have e2 : ((0#1 : BitVec 1).setWidth 32).toInt = 0 := by decide
  rw [e2]; simp

/-- Two table rows below 128 with the same 32-bit word are the same row. -/
theorem word_inj (k c : Fin 128) (h : BitVec.ofNat 32 k.val = BitVec.ofNat 32 c.val) : k = c := by
  have h' := congrArg BitVec.toNat h
  simp only [BitVec.toNat_ofNat] at h'
  have hk := k.isLt
  have hc := c.isLt
  exact Fin.ext (by omega)

/-- The gathered centre at (r, d): the table's row `k`, when row r's label word is `k`. -/
theorem centres_apply (x1 : Vec Ideal S1x128x512 .f32) (x2 : Vec Ideal S4096x1 .i32) (r : Fin 4096) (d : Fin 512)
    (k : Fin 128) (hk : x2 (ix2 r 0) = BitVec.ofNat 32 k.val) :
    k0_pay4 x1 x2 (ix2 r d) = x1 (ix3 0 k d) := by
  unfold k0_pay4
  refine (matmul_apply_ix _ _ r d).trans ?_
  refine (Finset.sum_congr rfl fun c _ => congrArg (_ * ·) (shapeCast_1ab_ab_apply x1 _ c d)).trans ?_
  refine sum_indicator_mul k _ (fun c => x1 (ix3 0 c d)) ?_ ?_
  · show FloatOps.sitofp (F := Ideal) .f32 ((IntOp.cmpi .eq (broadcastTo S4096x128 _ _ (ix2 r k)) (iota .tc S4096x128 32 [1] _ (ix2 r k))).setWidth 32) = 1
    rw [labelBlock_apply, colIota_apply]
    exact weight_of_eq _ _ hk
  · intro c hc
    show FloatOps.sitofp (F := Ideal) .f32 ((IntOp.cmpi .eq (broadcastTo S4096x128 _ _ (ix2 r c)) (iota .tc S4096x128 32 [1] _ (ix2 r c))).setWidth 32) = 0
    rw [labelBlock_apply, colIota_apply]
    refine weight_of_ne _ _ fun e => hc ?_
    exact (word_inj k c (hk.symm.trans e)).symm

/-! ## The feature tile, the two norm columns, and the similarity block -/

/-- The feature tile with its unit axis dropped. -/
theorem feat_apply (x0 : Vec Ideal S1x4096x512 .f32) (r : Fin 4096) (d : Fin 512) :
    k0_pay3 x0 (ix2 r d) = x0 (ix3 0 r d) := by
  unfold k0_pay3
  exact shapeCast_1ab_ab_apply x0 _ r d

/-- The column of the row sums of a [4096, 512] block, at row r. -/
theorem rowSumCol_apply (v : FVec Ideal S4096x512 .f32) (h : S4096x512.Reduces [1] S4096) (hφ : FKind.Formats .f32)
    (hacc : (0x00000000#32 : BitVec 32) = FKind.add.neutral .f32 hφ) (hc : S4096.ShapeCasts S4096x1) (r : Fin 4096) :
    shapeCast S4096x1 (multiReduction .add [1] S4096 v 0x00000000#32 h hφ hacc) hc (ix2 r 0) = ∑ d : Fin 512, v (ix2 r d) :=
  (shapeCast_a_a1_apply _ hc r 0).trans (rowSum_apply v h hφ hacc r)

/-- The feature norm column at row r: the root of the row's sum of squares. -/
theorem featNorm_apply (x0 : Vec Ideal S1x4096x512 .f32) (r : Fin 4096) :
    k0_pay6 x0 (ix2 r 0) = Ideal.sqrt (∑ d : Fin 512, x0 (ix3 0 r d) * x0 (ix3 0 r d)) := by
  unfold k0_pay6
  refine congrArg Ideal.sqrt ((rowSumCol_apply _ _ _ _ _ r).trans (Finset.sum_congr rfl fun d _ => ?_))
  rw [mulf_apply, feat_apply]

/-- The centre norm column at row r: the root of the sum of squares of the table row the label names. -/
theorem centreNorm_apply (x1 : Vec Ideal S1x128x512 .f32) (x2 : Vec Ideal S4096x1 .i32) (r : Fin 4096) (k : Fin 128)
    (hk : x2 (ix2 r 0) = BitVec.ofNat 32 k.val) :
    k0_pay7 x1 x2 (ix2 r 0) = Ideal.sqrt (∑ d : Fin 512, x1 (ix3 0 k d) * x1 (ix3 0 k d)) := by
  unfold k0_pay7
  refine congrArg Ideal.sqrt ((rowSumCol_apply _ _ _ _ _ r).trans (Finset.sum_congr rfl fun d _ => ?_))
  rw [mulf_apply, centres_apply x1 x2 r d k hk]

/-- The similarity block over any two [4096, 512] blocks and two norm columns: at row r the row's dot product over
    the product of the two floored norms. -/
theorem sims_apply (v4 v16 : FVec Ideal S4096x512 .f32) (v30 v34 : FVec Ideal S4096x1 .f32) (e : Ideal .f32) (r : Fin 4096) :
    k0_pay1 v4 v16 v30 v34 e (ix3 0 r 0)
      = Ideal.div (∑ d : Fin 512, v4 (ix2 r d) * v16 (ix2 r d))
          (max (v30 (ix2 r 0)) e * max (v34 (ix2 r 0)) (Ideal.ofBits .f32 0x322BCC77#32)) := by
  unfold k0_pay1
  refine (shapeCast_ab_1ab_apply _ _ 0 r 0).trans ?_
  refine congrArg (Ideal.div · _) ((rowSumCol_apply _ _ _ _ _ r).trans (Finset.sum_congr rfl fun d _ => ?_))
  rw [mulf_apply]

/-- The similarity block at row r. -/
theorem simsPayload_apply (x0 : Vec Ideal S1x4096x512 .f32) (x1 : Vec Ideal S1x128x512 .f32) (x2 : Vec Ideal S4096x1 .i32)
    (r : Fin 4096) (k : Fin 128) (hk : x2 (ix2 r 0) = BitVec.ofNat 32 k.val) :
    k0_pay1 (k0_pay3 x0) (k0_pay4 x1 x2) (k0_pay6 x0) (k0_pay7 x1 x2) (Scalar.ofBits .f32 0x322BCC77#32) (ix3 0 r 0)
      = cosRow (fun d => x0 (ix3 0 r d)) (fun d => x1 (ix3 0 k d)) := by
  refine (sims_apply _ _ _ _ _ r).trans ?_
  rw [featNorm_apply, centreNorm_apply x1 x2 r k hk]
  unfold cosRow eps
  refine congrArg (Ideal.div · _) (Finset.sum_congr rfl fun d _ => ?_)
  rw [feat_apply, centres_apply x1 x2 r d k hk]

/-- The accumulator block at lane d: what it held plus the tile's column sum of squared distances. -/
theorem accPayload_apply (x0 : Vec Ideal S1x4096x512 .f32) (x1 : Vec Ideal S1x128x512 .f32) (x2 : Vec Ideal S4096x1 .i32)
    (xo : Vec Ideal S1x1x512 .f32) (kk : Fin 4096 → Fin 128) (hk : ∀ r, x2 (ix2 r 0) = BitVec.ofNat 32 (kk r).val) (d : Fin 512) :
    k0_pay5 x0 x1 x2 xo (ix3 0 0 d)
      = xo (ix3 0 0 d) + ∑ r : Fin 4096, sqDist (fun d => x0 (ix3 0 r d)) (fun d => x1 (ix3 0 (kk r) d)) d := by
  unfold k0_pay5
  refine (shapeCast_ab_1ab_apply _ _ 0 0 d).trans ?_
  refine (addf_apply _ _ _).trans ?_
  refine congrArg₂ (· + ·) (shapeCast_1ab_ab_apply xo _ 0 d) ?_
  refine (shapeCast_a_1a_apply _ _ 0 d).trans ?_
  refine (colSum_apply _ _ _ _ d).trans (Finset.sum_congr rfl fun r _ => ?_)
  rw [mulf_apply, subf_apply, feat_apply, centres_apply x1 x2 r d (kk r) (hk r)]
  rfl

/-- The reset block is zero. -/
theorem zeroPayload_apply (d : Fin 512) : k0_pay2 (F := Ideal) (ix3 0 0 d) = 0 := by
  unfold k0_pay2
  refine (shapeCast_ab_1ab_apply _ _ 0 0 d).trans ?_
  exact Ideal.ofBits_zero_f32

end Cert.KernelIdeal.Payload

end
-- ==== Proof.KAccum.lean ====
/-
  What the two output blocks hold after each grid point, over the extended reals: the similarity block holds the
  similarities of the point's tile of samples; the accumulator block holds, lane by lane, the squared distances summed
  over the tiles of the view met so far — it starts again from zero at each view's first tile.
-/
import proofs.«426368_j30855045054677_3_alg».proof.Proof.KPieces
import proofs.«426368_j30855045054677_3_alg».proof.Proof.KBlocks
import proofs.«426368_j30855045054677_3_alg».proof.Proof.KPayload

noncomputable section

open scoped BigOperators
open Idealize.ShloMosaic Idealize.ShloMosaic.TcCoe Idealize.SL.Sem Idealize.ShloMosaic.ValueIdx

namespace Cert.KernelIdeal.Accum

open Cert.KernelIdeal Cert.KernelIdeal.Gen Cert.AnchorLoss
open Cert.KernelIdeal.Blocks Cert.KernelIdeal.Pieces Cert.KernelIdeal.Payload

variable (m : (ℓ : Loc nD τ sig) → Buf (Elt Ideal) ℓ)

/-- The three argument arrays on core `c`. -/
abbrev feats (c : Dev nD) : S2x16384x512.Idx → EReal := m ((c : Thread nD τ).loc main_arg0)
abbrev labels (c : Dev nD) : S16384.Idx → BitVec 32 := m ((c : Thread nD τ).loc main_arg1)
abbrev anchors (c : Dev nD) : S2x100x512.Idx → EReal := m ((c : Thread nD τ).loc main_arg2)

/-- The three blocks the body loads at point `t`. -/
abbrev featBlk (c : Dev nD) (t : Fin cfg0.N) : Vec Ideal S1x4096x512 .f32 := iblk m c 0 t
abbrev tabBlk (c : Dev nD) (t : Fin cfg0.N) : Vec Ideal S1x128x512 .f32 := iblk m c 1 t
abbrev labBlk (c : Dev nD) (t : Fin cfg0.N) : Vec Ideal S4096x1 .i32 := iblk m c 2 t

/-- The table row named by the label of the tile's row `r`. -/
def rowOf (c : Dev nD) (t : Fin cfg0.N) (r : Fin 4096) : Fin 128 :=
  Fin.castLE (by norm_num) (lab (labels m c) (tileRow (tileOf t) r))

/-- With labels in range, the label tile holds the word of that row. -/
theorem labBlk_word (c : Dev nD) (hl : InRange (labels m c)) (t : Fin cfg0.N) (r : Fin 4096) :
    labBlk m c t (ix2 r 0) = BitVec.ofNat 32 (rowOf m c t r).val := by
  have h := hl (tileRow (tileOf t) r)
  refine (labelBlock_apply m c t r).trans ?_
  rw [clippedLabel_apply, clip_of_inRange _ h.1 h.2]
  refine (word_eq_ofNat _ h.1).trans (congrArg (BitVec.ofNat 32) ?_)
  show _ = min _ 99
  omega

/-- Row `r` of the feature tile is the features' row of that sample. -/
theorem featRow_blk (c : Dev nD) (t : Fin cfg0.N) (r : Fin 4096) :
    (fun d => featBlk m c t (ix3 0 r d)) = featRow (feats m c) (viewOf t) (tileRow (tileOf t) r) :=
  funext fun d => featBlock_apply m c t r d

/-- The table row the label names is the sample's centre. -/
theorem centre_blk (c : Dev nD) (t : Fin cfg0.N) (r : Fin 4096) :
    (fun d => tabBlk m c t (ix3 0 (rowOf m c t r) d))
      = centre (anchors m c) (labels m c) (viewOf t) (tileRow (tileOf t) r) :=
  funext fun d => (tableBlock_apply m c t (rowOf m c t r) d).trans
    (paddedTable_apply m c (viewOf t) (lab (labels m c) (tileRow (tileOf t) r)) d)

/-- The similarity block the body stores at point `t`. -/
def simsVal (c : Dev nD) (t : Fin cfg0.N) : Vec Ideal S1x4096x1 .f32 :=
  k0_pay1 (k0_pay3 (featBlk m c t)) (k0_pay4 (tabBlk m c t) (labBlk m c t)) (k0_pay6 (featBlk m c t))
    (k0_pay7 (tabBlk m c t) (labBlk m c t)) (Scalar.ofBits .f32 0x322BCC77#32)

/-- Its row `r` is the similarity of the tile's sample `r`. -/
theorem simsVal_apply (c : Dev nD) (hl : InRange (labels m c)) (t : Fin cfg0.N) (r : Fin 4096) :
    simsVal m c t (ix3 0 r 0)
      = simsAt (feats m c) (labels m c) (anchors m c) (viewOf t) (tileRow (tileOf t) r) := by
  refine (simsPayload_apply (featBlk m c t) (tabBlk m c t) (labBlk m c t) r (rowOf m c t r) (labBlk_word m c hl t r)).trans ?_
  rw [featRow_blk, centre_blk]
  rfl

/-- After every point the similarity block is that value. -/
theorem outsAt_sims (c : Dev nD) (t : Fin cfg0.N) : (outsAt0 m c t.val t.isLt).1 = simsVal m c t := by
  by_cases h0 : t.val % 4 = 0
  · rw [outsAt0_A m c t h0]; dsimp only
    exact simsPiece_A (F := Ideal) c (grid0.coords t) (ms0_0 t) (hs0_0 t) (ms0_1 t) (hs0_1 t) (ms0_2 t) (hs0_2 t) (ms0_3 t)
      (hs0_3 t) (ms0_4 t) (hs0_4 t) ((hcond0_0 t).mpr h0) (featBlk m c t) (tabBlk m c t) (labBlk m c t)
  · rw [outsAt0_B m c t h0]; dsimp only
    exact simsPiece_B (F := Ideal) c (grid0.coords t) (ms0_0 t) (hs0_0 t) (ms0_1 t) (hs0_1 t) (ms0_2 t) (hs0_2 t) (ms0_3 t)
      (hs0_3 t) (ms0_4 t) (hs0_4 t) (fun h => h0 ((hcond0_0 t).mp h)) (featBlk m c t) (tabBlk m c t) (labBlk m c t)
      (outsAt0 m c (t.val - 1) (Nat.lt_of_le_of_lt (Nat.sub_le _ _) t.isLt)).2

/-- Lane `d`'s squared distances summed over the rows of point `t`'s tile. -/
def tileSum (c : Dev nD) (t : Fin cfg0.N) (d : Fin 512) : EReal :=
  ∑ r : Fin 4096, sqDist (featRow (feats m c) (viewOf t) (tileRow (tileOf t) r))
    (centre (anchors m c) (labels m c) (viewOf t) (tileRow (tileOf t) r)) d

/-- The body's column sums at point `t`, in the blocks' terms, are that tile sum. -/
theorem blockSum_eq (c : Dev nD) (t : Fin cfg0.N) (d : Fin 512) :
    (∑ r : Fin 4096, sqDist (fun d => featBlk m c t (ix3 0 r d)) (fun d => tabBlk m c t (ix3 0 (rowOf m c t r) d)) d)
      = tileSum m c t d :=
  Finset.sum_congr rfl fun r _ => by rw [featRow_blk, centre_blk]

/-- At a view's first tile the accumulator is zero plus the tile sum. -/
theorem acc_first (c : Dev nD) (hl : InRange (labels m c)) (t : Fin cfg0.N) (h0 : t.val % 4 = 0) (d : Fin 512) :
    (outsAt0 m c t.val t.isLt).2 (ix3 0 0 d) = 0 + tileSum m c t d := by
  rw [outsAt0_A m c t h0]; dsimp only
  refine (congrFun (accPiece_A (F := Ideal) c (grid0.coords t) (ms0_0 t) (hs0_0 t) (ms0_1 t) (hs0_1 t) (ms0_2 t) (hs0_2 t) (ms0_3 t)
      (hs0_3 t) (ms0_4 t) (hs0_4 t) ((hcond0_0 t).mpr h0) (featBlk m c t) (tabBlk m c t) (labBlk m c t)) (ix3 0 0 d)).trans ?_
  refine (accPayload_apply (featBlk m c t) (tabBlk m c t) (labBlk m c t) (k0_pay2 (F := Ideal)) (rowOf m c t)
    (labBlk_word m c hl t) d).trans ?_
  rw [zeroPayload_apply, blockSum_eq]

/-- At a later tile it is what the point before left plus the tile sum. -/
theorem acc_next (c : Dev nD) (hl : InRange (labels m c)) (t : Fin cfg0.N) (h0 : ¬t.val % 4 = 0) (d : Fin 512) :
    (outsAt0 m c t.val t.isLt).2 (ix3 0 0 d)
      = (outsAt0 m c (t.val - 1) (Nat.lt_of_le_of_lt (Nat.sub_le _ _) t.isLt)).2 (ix3 0 0 d) + tileSum m c t d := by
  rw [outsAt0_B m c t h0]; dsimp only
  refine (congrFun (accPiece_B (F := Ideal) c (grid0.coords t) (ms0_0 t) (hs0_0 t) (ms0_1 t) (hs0_1 t) (ms0_2 t) (hs0_2 t) (ms0_3 t)
      (hs0_3 t) (ms0_4 t) (hs0_4 t) (fun h => h0 ((hcond0_0 t).mp h)) (featBlk m c t) (tabBlk m c t) (labBlk m c t)
      (outsAt0 m c (t.val - 1) (Nat.lt_of_le_of_lt (Nat.sub_le _ _) t.isLt)).2) (ix3 0 0 d)).trans ?_
  refine (accPayload_apply (featBlk m c t) (tabBlk m c t) (labBlk m c t) _ (rowOf m c t) (labBlk_word m c hl t) d).trans ?_
  rw [blockSum_eq]

/-- The running sum, point by point: from zero at each view's first tile, one tile sum more at each later one. -/
def running (c : Dev nD) : (n : ℕ) → n < cfg0.N → Fin 512 → EReal
  | 0, h => fun d => 0 + tileSum m c ⟨0, h⟩ d
  | n + 1, h => if (n + 1) % 4 = 0 then fun d => 0 + tileSum m c ⟨n + 1, h⟩ d
      else fun d => running c n (Nat.lt_of_succ_lt h) d + tileSum m c ⟨n + 1, h⟩ d

/-- After every point the accumulator block is the running sum. -/
theorem outsAt_acc (c : Dev nD) (hl : InRange (labels m c)) :
    ∀ (n : ℕ) (h : n < cfg0.N) (d : Fin 512), (outsAt0 m c n h).2 (ix3 0 0 d) = running m c n h d
  | 0, h, d => acc_first m c hl ⟨0, h⟩ rfl d
  | n + 1, h, d => by
    by_cases h0 : (n + 1) % 4 = 0
    · rw [running, if_pos h0]; exact acc_first m c hl ⟨n + 1, h⟩ h0 d
    · rw [running, if_neg h0]
      refine (acc_next m c hl ⟨n + 1, h⟩ h0 d).trans ?_
      show (outsAt0 m c n _).2 (ix3 0 0 d) + _ = _
      rw [outsAt_acc c hl n]

end Cert.KernelIdeal.Accum

end
-- ==== Proof.KFinal.lean ====
/-
  The two result arrays of the region after the run, over the extended reals: the similarity array holds every sample's
  similarity (each grid point writes back its own tile), and the accumulator array holds, per view and lane, the squared
  distances summed over all four tiles (written back after a view's last tile).
-/
import proofs.«426368_j30855045054677_3_alg».proof.Proof.KAccum

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.AnchorLoss
open Cert.KernelIdeal.Blocks Cert.KernelIdeal.Accum

variable (m : (ℓ : Loc nD τ sig) → Buf (Elt Ideal) ℓ)

/-- The similarity array: sample (v, b)'s similarity at (v, b, 0). -/
def simsArr (c : Dev nD) : S2x16384x1.Idx → EReal :=
  fun i => simsAt (feats m c) (labels m c) (anchors m c) (i 0) (i 1)

/-- Lane `d`'s squared distances of view `v`, summed tile by tile. -/
def viewSum (c : Dev nD) (v : Fin 2) (d : Fin 512) : EReal :=
  ∑ j : Fin 4, ∑ r : Fin 4096, sqDist (featRow (feats m c) v (tileRow j r))
    (centre (anchors m c) (labels m c) v (tileRow j r)) d

/-- The accumulator array: view v's lane-d sum at (v, 0, d). -/
def accArr (c : Dev nD) : S2x1x512.Idx → EReal := fun i => viewSum m c (i 0) (i 2)

/-- Where the two output windows' blocks sit at a grid point. -/
theorem idx_sims : ∀ t : Fin cfg0.N, win0_3.index t (0 : Fin 3) = t.val / 4 ∧ win0_3.index t (1 : Fin 3) = t.val % 4 ∧ win0_3.index t (2 : Fin 3) = 0 :=
  (by decide +kernel : ∀ t : Fin grid0.N, win0_3.index t (0 : Fin 3) = t.val / 4 ∧ win0_3.index t (1 : Fin 3) = t.val % 4 ∧ win0_3.index t (2 : Fin 3) = 0)
theorem idx_acc : ∀ t : Fin cfg0.N, win0_4.index t (0 : Fin 3) = t.val / 4 ∧ win0_4.index t (1 : Fin 3) = 0 ∧ win0_4.index t (2 : Fin 3) = 0 :=
  (by decide +kernel : ∀ t : Fin grid0.N, win0_4.index t (0 : Fin 3) = t.val / 4 ∧ win0_4.index t (1 : Fin 3) = 0 ∧ win0_4.index t (2 : Fin 3) = 0)

/-! ## The similarity array -/

/-- What point `t` writes back is its block of the similarity array. -/
theorem flushedSims_eq (c : Dev nD) (hl : InRange (labels m c)) (t : Fin cfg0.N) :
    (dats m 0 c).flushed 3 t = ((cfg0.win 3).blk t).view.read (Elt Ideal) (simsArr m c) := by
  show (cfg0.win 3).cut (grid0.coords t) ((dats m 0 c).after 3 t) = _
  rw [after0_3, outsAt_sims]
  funext y
  obtain ⟨a, r, e, rfl⟩ : ∃ (a : Fin 1) (r : Fin 4096) (e : Fin 1), y = ix3 a r e := ⟨y 0, y 1, y 2, eq_ix3 y⟩
  obtain rfl : a = 0 := Subsingleton.elim _ _
  obtain rfl : e = 0 := Subsingleton.elim _ _
  show simsVal m c t (ix3 0 r 0) = simsArr m c (((cfg0.win 3).blk t).view.emb (ix3 0 r 0))
  rw [simsVal_apply m c hl t r]
  refine congrArg₂ (simsAt (feats m c) (labels m c) (anchors m c)) (Fin.ext ?_) (Fin.ext ?_)
  · show t.val / 4 = win0_3.index t 0 * 1 + 1 * 0
    rw [(idx_sims t).1]; omega
  · show t.val % 4 * 4096 + r.val = win0_3.index t 1 * 4096 + 1 * r.val
    rw [(idx_sims t).2.1]; omega

/-- An index is in point `t`'s similarity block iff each coordinate is in the block's range. -/
theorem mem_simsBlk (t : Fin cfg0.N) (i : S2x16384x1.Idx) :
    i ∈ ((cfg0.win 3).blk t).view.set ↔ ∀ a : Fin 3, win0_3.index t a * S1x4096x1.size a ≤ (i a).val
      ∧ (i a).val < win0_3.index t a * S1x4096x1.size a + S1x4096x1.size a := by
  show i ∈ ((View.whole main_v3_0).slice (win0_3.rect t)).set ↔ _
  rw [View.set_slice_whole, Rect.mem_set_unit]
  exact Iff.rfl

/-- Every index of the similarity array is in some point's block: the point of its view and tile. -/
theorem cover_sims (i : S2x16384x1.Idx) :
    ∃ t : Fin cfg0.N, (cfg0.win 3).flush t = true ∧ i ∈ ((cfg0.win 3).blk t).view.set := by
  have h0 : (i 0).val < 2 := (i 0).isLt
  have h1 : (i 1).val < 16384 := (i 1).isLt
  have h2 : (i 2).val < 1 := (i 2).isLt
  have hN : cfg0.N = 8 := N_0
  let t : Fin cfg0.N := ⟨4 * (i 0).val + (i 1).val / 4096, by rw [hN]; omega⟩
  have ht : t.val = 4 * (i 0).val + (i 1).val / 4096 := rfl
  refine ⟨t, flush0_3 t, ?_⟩
  rw [mem_simsBlk]
  obtain ⟨e0, e1, e2⟩ := idx_sims t
  intro a
  match a with
  | ⟨0, _⟩ => show win0_3.index t 0 * 1 ≤ (i 0).val ∧ (i 0).val < win0_3.index t 0 * 1 + 1; rw [e0]; omega
  | ⟨1, _⟩ => show win0_3.index t 1 * 4096 ≤ (i 1).val ∧ (i 1).val < win0_3.index t 1 * 4096 + 4096; rw [e1]; omega
  | ⟨2, _⟩ => show win0_3.index t 2 * 1 ≤ (i 2).val ∧ (i 2).val < win0_3.index t 2 * 1 + 1; rw [e2]; omega

/-- The similarity array after the run. -/
theorem final_sims (c : Dev nD) (hl : InRange (labels m c)) : (dats m 0 c).arrAt 3 cfg0.N = simsArr m c :=
  (dats m 0 c).arrAt_eq_of_cover 3 (simsArr m c) (fun t _ => flushedSims_eq m c hl t) cover_sims

/-! ## The accumulator array -/

theorem running_zero (c : Dev nD) (h : 0 < cfg0.N) (d : Fin 512) :
    running m c 0 h d = 0 + tileSum m c ⟨0, h⟩ d := by rw [running]
theorem running_succ (c : Dev nD) (n : ℕ) (h : n + 1 < cfg0.N) (h0 : ¬(n + 1) % 4 = 0) (d : Fin 512) :
    running m c (n + 1) h d = running m c n (Nat.lt_of_succ_lt h) d + tileSum m c ⟨n + 1, h⟩ d := by
  rw [running, if_neg h0]
theorem running_reset (c : Dev nD) (n : ℕ) (h : n + 1 < cfg0.N) (h0 : (n + 1) % 4 = 0) (d : Fin 512) :
    running m c (n + 1) h d = 0 + tileSum m c ⟨n + 1, h⟩ d := by
  rw [running, if_pos h0]

/-- The tile sum of the point of view `v` and tile `j`. -/
theorem tileSum_eq (c : Dev nD) (t : Fin cfg0.N) (v : Fin 2) (j : Fin 4) (hv : t.val / 4 = v.val) (hj : t.val % 4 = j.val)
    (d : Fin 512) :
    tileSum m c t d = ∑ r : Fin 4096, sqDist (featRow (feats m c) v (tileRow j r))
      (centre (anchors m c) (labels m c) v (tileRow j r)) d := by
  have e1 : viewOf t = v := Fin.ext hv
  have e2 : tileOf t = j := Fin.ext hj
  unfold tileSum
  rw [e1, e2]

/-- After a view's last tile the running sum is the view's whole sum. -/
theorem running_last (c : Dev nD) (v : Fin 2) (h : 4 * v.val + 3 < cfg0.N) (d : Fin 512) :
    running m c (4 * v.val + 3) h d = viewSum m c v d := by
  unfold viewSum
  rw [Fin.sum_univ_four]
  match v, h with
  | ⟨0, _⟩, h =>
    show running m c 3 h d = _
    rw [running_succ m c 2 h (by decide), running_succ m c 1 _ (by decide), running_succ m c 0 _ (by decide),
      running_zero, zero_add]
    refine congrArg₂ (· + ·) (congrArg₂ (· + ·) (congrArg₂ (· + ·) ?_ ?_) ?_) ?_ <;>
      exact tileSum_eq m c _ _ _ (by norm_num) (by norm_num) d
  | ⟨1, _⟩, h =>
    show running m c 7 h d = _
    rw [running_succ m c 6 h (by decide), running_succ m c 5 _ (by decide), running_succ m c 4 _ (by decide),
      running_reset m c 3 _ (by decide), zero_add]
    refine congrArg₂ (· + ·) (congrArg₂ (· + ·) (congrArg₂ (· + ·) ?_ ?_) ?_) ?_ <;>
      exact tileSum_eq m c _ _ _ (by norm_num) (by norm_num) d

/-- What a view's last point writes back is its block of the accumulator array. -/
theorem flushedAcc_eq (c : Dev nD) (hl : InRange (labels m c)) (t : Fin cfg0.N) (hf : (cfg0.win 4).flush t = true) :
    (dats m 0 c).flushed 4 t = ((cfg0.win 4).blk t).view.read (Elt Ideal) (accArr m c) := by
  have h3 : t.val % 4 = 3 := (flush0_4 t).mp hf
  have hN : t.val < 8 := lt_of_lt_of_eq t.isLt (show cfg0.N = 8 from N_0)
  show (cfg0.win 4).cut (grid0.coords t) ((dats m 0 c).after 4 t) = _
  rw [after0_4]
  funext y
  obtain ⟨a, e, d, rfl⟩ : ∃ (a : Fin 1) (e : Fin 1) (d : Fin 512), y = ix3 a e d := ⟨y 0, y 1, y 2, eq_ix3 y⟩
  obtain rfl : a = 0 := Subsingleton.elim _ _
  obtain rfl : e = 0 := Subsingleton.elim _ _
  show (outsAt0 m c t.val t.isLt).2 (ix3 0 0 d) = accArr m c (((cfg0.win 4).blk t).view.emb (ix3 0 0 d))
  rw [outsAt_acc m c hl]
  obtain ⟨v, hv⟩ : ∃ v : Fin 2, t.val = 4 * v.val + 3 := ⟨⟨t.val / 4, by omega⟩, by show t.val = 4 * (t.val / 4) + 3; omega⟩
  obtain ⟨tv, htv⟩ := t
  dsimp only at hv
  subst hv
  rw [running_last m c v htv d]
  show viewSum m c v d = viewSum m c _ _
  refine congrArg₂ (viewSum m c) (Fin.ext ?_) (Fin.ext ?_)
  · show v.val = win0_4.index ⟨4 * v.val + 3, htv⟩ 0 * 1 + 1 * 0
    rw [(idx_acc ⟨4 * v.val + 3, htv⟩).1]; dsimp only; omega
  · show d.val = win0_4.index ⟨4 * v.val + 3, htv⟩ 2 * 512 + 1 * d.val
    rw [(idx_acc ⟨4 * v.val + 3, htv⟩).2.2]; omega

/-- An index is in point `t`'s accumulator block iff each coordinate is in the block's range. -/
theorem mem_accBlk (t : Fin cfg0.N) (i : S2x1x512.Idx) :
    i ∈ ((cfg0.win 4).blk t).view.set ↔ ∀ a : Fin 3, win0_4.index t a * S1x1x512.size a ≤ (i a).val
      ∧ (i a).val < win0_4.index t a * S1x1x512.size a + S1x1x512.size a := by
  show i ∈ ((View.whole main_v3_1).slice (win0_4.rect t)).set ↔ _
  rw [View.set_slice_whole, Rect.mem_set_unit]
  exact Iff.rfl

/-- Every index of the accumulator array is in the block of its view's last point. -/
theorem cover_acc (i : S2x1x512.Idx) :
    ∃ t : Fin cfg0.N, (cfg0.win 4).flush t = true ∧ i ∈ ((cfg0.win 4).blk t).view.set := by
  have h0 : (i 0).val < 2 := (i 0).isLt
  have h1 : (i 1).val < 1 := (i 1).isLt
  have h2 : (i 2).val < 512 := (i 2).isLt
  have hN : cfg0.N = 8 := N_0
  let t : Fin cfg0.N := ⟨4 * (i 0).val + 3, by rw [hN]; omega⟩
  have ht : t.val = 4 * (i 0).val + 3 := rfl
  refine ⟨t, (flush0_4 t).mpr (by rw [ht]; omega), ?_⟩
  rw [mem_accBlk]
  obtain ⟨e0, e1, e2⟩ := idx_acc t
  intro a
  match a with
  | ⟨0, _⟩ => show win0_4.index t 0 * 1 ≤ (i 0).val ∧ (i 0).val < win0_4.index t 0 * 1 + 1; rw [e0]; omega
  | ⟨1, _⟩ => show win0_4.index t 1 * 1 ≤ (i 1).val ∧ (i 1).val < win0_4.index t 1 * 1 + 1; rw [e1]; omega
  | ⟨2, _⟩ => show win0_4.index t 2 * 512 ≤ (i 2).val ∧ (i 2).val < win0_4.index t 2 * 512 + 512; rw [e2]; omega

/-- The accumulator array after the run. -/
theorem final_acc (c : Dev nD) (hl : InRange (labels m c)) : (dats m 0 c).arrAt 4 cfg0.N = accArr m c :=
  (dats m 0 c).arrAt_eq_of_cover 4 (accArr m c) (fun t hf => flushedAcc_eq m c hl t hf) cover_acc

end Cert.KernelIdeal.Final

end
-- ==== Proof.KTailSims.lean ====
/-
  The host lines after the region, read for the similarities: from any contents of the buffers, the returned
  similarities are the region's similarity array with its unit axis dropped.
-/
import proofs.«426368_j30855045054677_3_alg».proof.Proof.Gen.KernelIdeal.Frame
import Idealize.ShloMosaic.Lib.StableHlo.Run
import Idealize.ShloMosaic.PureOps.Ideal

noncomputable section

open scoped BigOperators
open Idealize.ShloMosaic Idealize.ShloMosaic.TcCoe Idealize.SL.Sem

namespace Cert.KernelIdeal.Results

open Cert.KernelIdeal Cert.KernelIdeal.Gen

set_option maxRecDepth 8192 in
set_option maxHeartbeats 8000000 in
/-- The lines after the region leave, in the similarities' buffer, the reshape of the region's first result. -/
theorem after_sims (W : Valuation τ sig (Elt Ideal)) :
    StableHlo.after (hostOps1 (F := Ideal)) W (Proc.devRef .tc main_v4)
      = shapeCast S2x16384 (W (Proc.devRef .tc main_v3_0)) shapeCasts_S2x16384x1_S2x16384 := by
  after_results
  rfl

end Cert.KernelIdeal.Results

end
-- ==== Proof.Tail.lean ====
/-
  What both programs do with a view's summed squared distances `ss` and the anchors `a` to get the loss: halve and
  average the centre term over the samples and the views, and add the anchors' pairwise-margin term, which is the same
  function of the anchors in both programs and is carried here unopened.
-/
import proofs.«426368_j30855045054677_3_alg».proof.Proof.Gen.ReferenceIdeal.Read

noncomputable section

namespace Cert.ReferenceIdeal.Tail

open Cert.ReferenceIdeal Cert.ReferenceIdeal.Gen Cert.ReferenceIdeal.Read Idealize.ShloMosaic

variable {F : FTy → Type} [FloatOps F]

/-- The loss from the per-view squared-distance sums and the anchors. -/
def lossOf (ss : (⟨S2, .f32⟩ : BufTy).Contents (Elt F)) (a : (⟨S2x100x512, .f32⟩ : BufTy).Contents (Elt F)) :
    (⟨S_, .f32⟩ : BufTy).Contents (Elt F) :=
  addf (Host.divf (Host.reduceAdd (Host.divf (Host.divf ss (val_main_v10 (F := F))) (val_main_v12 (F := F)))
    (val_main_cst_15 (F := F)) reducesTo_S2_S_d0 h_S_) (val_main_cst_16 (F := F))) (val_main_v55 (F := F) a)

/-- The reference's loss is that function of its squared-distance sums. -/
theorem loss_eq (x0 : (⟨S2x16384x512, .f32⟩ : BufTy).Contents (Elt F)) (x1 : (⟨S16384, .i32⟩ : BufTy).Contents (Elt F))
    (x2 : (⟨S2x100x512, .f32⟩ : BufTy).Contents (Elt F)) :
    val_main_v56 (F := F) x0 x1 x2 = lossOf (val_main_v9 (F := F) x0 x1 x2) x2 := rfl

end Cert.ReferenceIdeal.Tail

end
-- ==== Proof.KTailLoss.lean ====
/-
  The host lines after the region, read for the loss: from any contents of the buffers, the returned loss is the
  shared closing function of the lane sums of the region's second result and of the anchors.
-/
import proofs.«426368_j30855045054677_3_alg».proof.Proof.Gen.KernelIdeal.Frame
import proofs.«426368_j30855045054677_3_alg».proof.Proof.Tail
import Idealize.ShloMosaic.Lib.StableHlo.Run

noncomputable section

open scoped BigOperators
open Idealize.ShloMosaic Idealize.ShloMosaic.TcCoe Idealize.SL.Sem

namespace Cert.KernelIdeal.Results

open Cert.KernelIdeal Cert.KernelIdeal.Gen

set_option maxRecDepth 8192 in
set_option maxHeartbeats 16000000 in
/-- The lines after the region leave, in the loss's buffer, the closing function of the lane sums and the anchors. -/
theorem after_loss (W : Valuation τ sig (Elt Ideal)) :
    StableHlo.after (hostOps1 (F := Ideal)) W (Proc.devRef .tc main_v43)
      = Cert.ReferenceIdeal.Tail.lossOf (F := Ideal)
          (Host.reduceAdd (F := Ideal) (shapeCast S2x512 (W (Proc.devRef .tc main_v3_1)) shapeCasts_S2x1x512_S2x512)
            (constant (F := Ideal) S_ .f32 0x00000000#32) reducesTo_S2x512_S2_d1 h_S_)
          (W (Proc.devRef .tc main_arg2)) := by
  after_results
  rfl

end Cert.KernelIdeal.Results

end
-- ==== Proof.KTail.lean ====
/-
  The kernel program's run read to its two results, over the extended reals: the similarities are every sample's
  similarity; the loss is the shared closing function of the per-view squared-distance sums and the anchors. The lane
  sums of the accumulator array, summed again over the lanes, are the sums over all samples and lanes: a sum over rows
  cut into four tiles, then lanes, reordered.
-/
import proofs.«426368_j30855045054677_3_alg».proof.Proof.KFinal
import proofs.«426368_j30855045054677_3_alg».proof.Proof.KTailSims
import proofs.«426368_j30855045054677_3_alg».proof.Proof.KTailLoss
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Results

open Cert.KernelIdeal Cert.KernelIdeal.Gen Cert.AnchorLoss
open Cert.KernelIdeal.Blocks Cert.KernelIdeal.Accum Cert.KernelIdeal.Final

variable (m : (ℓ : Loc nD τ sig) → Buf (Elt Ideal) ℓ) (ρ : Dev nD → PrngReg)

/-- At the region's exit its two result buffers hold the arrays the run computed, and the anchors are as launched. -/
theorem exit_sims (c : Dev nD) :
    Pipeline.withArrays (cfgs 0).spec c (V0 m c) (fun w => (dats m 0 c).arrAt w (cfgs 0).N) (Proc.devRef .tc main_v3_0)
      = (dats m 0 c).arrAt 3 cfg0.N :=
  Pipeline.withArrays_arr spec0 launch0.win.arr_inj c _ _ 3
theorem exit_acc (c : Dev nD) :
    Pipeline.withArrays (cfgs 0).spec c (V0 m c) (fun w => (dats m 0 c).arrAt w (cfgs 0).N) (Proc.devRef .tc main_v3_1)
      = (dats m 0 c).arrAt 4 cfg0.N :=
  Pipeline.withArrays_arr spec0 launch0.win.arr_inj c _ _ 4
theorem exit_anchors (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by decide)).trans (V_main_arg2 m c)

/-- The returned similarities: the similarity array without its unit axis. -/
def simsOut (c : Dev nD) : S2x16384.Idx → EReal :=
  shapeCast S2x16384 (simsArr m c) shapeCasts_S2x16384x1_S2x16384

/-- At (v, b): sample (v, b)'s similarity. -/
theorem simsOut_apply (c : Dev nD) (v : Fin 2) (b : Fin 16384) :
    simsOut m c (ix2 v b) = simsAt (feats m c) (labels m c) (anchors m c) v b := by
  refine (shapeCast_apply _ _ (ix2 v b) (ix3 v b 0) ?_).trans rfl
  rw [Shape.rowMajor_val_three, Shape.rowMajor_val_two]
  show (v.val * 16384 + b.val) * 1 + 0 = v.val * 16384 + b.val
  omega

/-- Summing over lanes, then tiles, then rows inside a tile is summing over samples, then lanes. -/
theorem sum_lanes_tiles (f : Fin 16384 → Fin 512 → EReal) :
    ∑ d : Fin 512, ∑ j : Fin 4, ∑ r : Fin 4096, f (tileRow j r) d = ∑ b : Fin 16384, ∑ d : Fin 512, f b d := by
  rw [Finset.sum_comm]
  refine (Finset.sum_congr rfl fun j _ => Finset.sum_comm).trans ?_
  exact sum_tiles fun b => ∑ d : Fin 512, f b d

/-- The per-view lane sums of the accumulator array. -/
def laneSums (c : Dev nD) : S2.Idx → EReal :=
  Host.reduceAdd (F := Ideal) (shapeCast S2x512 (accArr m c) shapeCasts_S2x1x512_S2x512)
    (constant (F := Ideal) S_ .f32 0x00000000#32) reducesTo_S2x512_S2_d1 h_S_

/-- At view v: the squared distances summed over every sample and lane. -/
theorem laneSums_apply (c : Dev nD) (v : Fin 2) :
    laneSums m c (ix1 v) = distSum (feats m c) (labels m c) (anchors m c) v := by
  unfold laneSums
  simp only [Host.reduceAdd, Ideal.hostReduceAdd_def]
  rw [Ideal.hostReduceAdd_single reducesTo_S2x512_S2_d1 (by decide)]
  show Ideal.ofBits .f32 0x00000000#32 + _ = _
  rw [Ideal.ofBits_zero_f32, zero_add]
  have e : ∀ d : Fin 512, shapeCast S2x512 (accArr m c) shapeCasts_S2x1x512_S2x512
      ((by decide : S2x512.Reduces [1] S2).lift (ix1 v) d) = viewSum m c v d := fun d => by
    refine (shapeCast_apply _ _ _ (ix3 v 0 d) ?_).trans rfl
    rw [Shape.rowMajor_val_three, Shape.rowMajor_val_two]
    show (v.val * 1 + 0) * 512 + d.val = v.val * 512 + d.val
    omega
  refine (Finset.sum_congr rfl fun d _ => e d).trans ?_
  show ∑ d : Fin 512, viewSum m c v d = _
  unfold viewSum distSum
  exact sum_lanes_tiles fun b d => sqDist (featRow (feats m c) v b) (centre (anchors m c) (labels m c) v b) d

/-- The loss the lines after the region return. -/
theorem tail_loss (c : Dev nD) (hl : InRange (labels m c)) :
    Pipeline.afterTail₀ cfgs (dats m) 0 (V0 m) [hostOps1] c main_v43
      = Cert.ReferenceIdeal.Tail.lossOf (F := Ideal) (laneSums m c) (anchors m c) := by
  unfold Pipeline.afterTail₀
  rw [List.flatten_singleton, after_loss, exit_acc, exit_anchors, final_acc m c hl]
  rfl

/-- The similarities the lines after the region return. -/
theorem tail_sims (c : Dev nD) (hl : InRange (labels m c)) :
    Pipeline.afterTail₀ cfgs (dats m) 0 (V0 m) [hostOps1] c main_v4 = simsOut m c := by
  unfold Pipeline.afterTail₀
  rw [List.flatten_singleton, after_sims, exit_sims, final_sims m c hl]
  rfl

/-- THE RUN, READ: with labels in range every fair execution ends with the loss and the similarities at these values
    and the three arguments unchanged. -/
theorem run (hl : ∀ c, InRange (labels m c)) :
    θ_run defs (onTc (τ := τ) (main (F := Ideal))) ⟨m, fun _ => 0, ρ⟩ fun r => ∀ c : Dev nD,
      r.2.mem ((c.tc : Thread nD τ).loc main_v43) = Cert.ReferenceIdeal.Tail.lossOf (F := Ideal) (laneSums m c) (anchors m c)
      ∧ r.2.mem ((c.tc : Thread nD τ).loc main_v4) = simsOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨
      ((h c).2 main_v43 (Pipeline.mem_restRefs_of main_v43 (by decide) (by decide))).trans (tail_loss m c (hl c)),
      ((h c).2 main_v4 (Pipeline.mem_restRefs_of main_v4 (by decide) (by decide))).trans (tail_sims m c (hl c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Results

end
-- ==== Proof.RefIs.lean ====
/-
  The reference's two results read at an index: its similarity at (v, b) is the cosine of the feature row and the
  anchor row of the sample's class, and its squared-distance sum of view v runs over every sample and lane.
-/
import proofs.«426368_j30855045054677_3_alg».proof.Proof.Gen.ReferenceIdeal.Read
import proofs.«426368_j30855045054677_3_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Cert.AnchorLoss
open Idealize.ShloMosaic Idealize.ShloMosaic.ValueIdx

/-- The reference gather's dimension numbers. -/
abbrev gd : GatherDims S2x100x512 S16384x1 S2x16384x512 := gather_S2x100x512_S16384x1_S2x16384x512_02_1_n_n_1_1_21512

/-- The gather at (v, b, d): the table at (v, clamp(start index of b), d), the start index read signed at (b, 0). -/
theorem gather_apply {α : Type} {w : Nat} (x : S2x100x512.Idx → α) (idx : IVec S16384x1 w) (v : Fin 2) (b : Fin 16384)
    (d : Fin 512) :
    Host.gather gd x idx (ix3 v b d) = x (ix3 v ⟨min (idx (ix2 b (0 : Fin 1))).toInt.toNat 99, by omega⟩ d) := by
  unfold Host.gather
  congr 1
  funext a
  refine Fin.ext ?_
  have hb : ∀ a, gd.batchCoord (ix3 v b d) a = 0 := fun a => GatherDims.batchCoord_eq_zero gd _ a List.not_mem_nil
  match a with
  | ⟨0, _⟩ =>
    show gd.start (ix3 v b d) idx 0 + gd.batchCoord (ix3 v b d) 0 + gd.offCoord (ix3 v b d) 0 = v.val
    rw [hb]
    unfold GatherDims.start GatherDims.offCoord
    rw [dif_neg (by decide), dif_pos (by decide), Nat.zero_add]
    rfl
  | ⟨1, _⟩ =>
    show gd.start (ix3 v b d) idx 1 + gd.batchCoord (ix3 v b d) 1 + gd.offCoord (ix3 v b d) 1 = min _ 99
    rw [hb, GatherDims.offCoord_eq_zero _ _ _ (fun h => ((GatherDims.mem_sKept _ _).mp h).1 (List.mem_singleton.mpr rfl))]
    unfold GatherDims.start
    rw [dif_pos (show (1 : Fin 3) ∈ gd.startIndexMap from List.mem_singleton.mpr rfl)]
    have hsi : gd.siIdx (ix3 v b d) ⟨List.idxOf (1 : Fin 3) gd.startIndexMap,
        List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  | ⟨2, _⟩ =>
    show gd.start (ix3 v b d) idx 2 + gd.batchCoord (ix3 v b d) 2 + gd.offCoord (ix3 v b d) 2 = d.val
    rw [hb]
    unfold GatherDims.start GatherDims.offCoord
    rw [dif_neg (by decide), dif_pos (by decide), Nat.zero_add]
    rfl

/-- The start index of sample b is its label, labels in range. -/
theorem start_apply (x1 : (⟨S16384, .i32⟩ : BufTy).Contents (Elt Ideal)) (hl : InRange x1) (b : Fin 16384) :
    val_main_v5 (F := Ideal) x1 (ix2 b (0 : Fin 1)) = x1 (ix1 b) := by
  have e : idx_main_v5 (ix2 b (0 : Fin 1)) = ix1 b := by
    funext a; match a with | ⟨0, _⟩ => rfl
  rw [val_main_v5_apply, e, val_main_v4_apply, val_main_v1_apply, val_main_v0_apply, val_main_c_apply]
  have hn : ¬ IntOp.cmpi .slt (x1 (ix1 b)) 0#32 = 1#1 := by
    rw [IntOp.cmpi_slt, show (0#32 : BitVec 32).toInt = 0 from by decide]
    have := (hl b).1; omega
  rw [eq_zero_of_ne_one hn, select_zero]

/-- The gathered element at (v, b, d) is the centre of sample b in view v at lane d. -/
theorem centre_apply (x1 : (⟨S16384, .i32⟩ : BufTy).Contents (Elt Ideal)) (x2 : (⟨S2x100x512, .f32⟩ : BufTy).Contents (Elt Ideal))
    (hl : InRange x1) (v : Fin 2) (b : Fin 16384) (d : Fin 512) :
    val_main_v6 (F := Ideal) x1 x2 (ix3 v b d) = centre x2 x1 v b d := by
  unfold val_main_v6
  rw [gather_apply]
  show x2 (ix3 v _ d) = x2 (ix3 v (lab x1 b) d)
  refine congrArg (fun k => x2 (ix3 v k d)) (Fin.ext ?_)
  show min (val_main_v5 (F := Ideal) x1 (ix2 b (0 : Fin 1))).toInt.toNat 99 = min (x1 (ix1 b)).toInt.toNat 99
  rw [start_apply x1 hl b]

/-- The index a row sum reads at lane k of row (v, b) is (v, b, k). -/
theorem idx_call0 (v : Fin 2) (b : Fin 16384) (k : Fin 512) : idx_main_call0_v1 (ix2 v b) k = ix3 v b k := by
  funext a; match a with | ⟨0, _⟩ => rfl | ⟨1, _⟩ => rfl | ⟨2, _⟩ => rfl
theorem idx_call1 (v : Fin 2) (b : Fin 16384) (k : Fin 512) : idx_main_call1_v1 (ix2 v b) k = ix3 v b k := by
  funext a; match a with | ⟨0, _⟩ => rfl | ⟨1, _⟩ => rfl | ⟨2, _⟩ => rfl
theorem idx_v21 (v : Fin 2) (b : Fin 16384) (k : Fin 512) : idx_main_v21 (ix2 v b) k = ix3 v b k := by
  funext a; match a with | ⟨0, _⟩ => rfl | ⟨1, _⟩ => rfl | ⟨2, _⟩ => rfl

/-- The feature row's norm. -/
theorem featNorm_apply (x0 : (⟨S2x16384x512, .f32⟩ : BufTy).Contents (Elt Ideal)) (v : Fin 2) (b : Fin 16384) :
    val_main_v14 (F := Ideal) x0 (ix2 v b) = Ideal.sqrt (∑ d, featRow x0 v b d * featRow x0 v b d) := by
  rw [val_main_v14_apply, val_main_call0_v1_apply, val_main_call0_cst_apply]
  show Ideal.sqrt (Ideal.ofBits .f32 0x00000000#32 + _) = _
  rw [Ideal.ofBits_zero_f32, zero_add]
  refine congrArg Ideal.sqrt (Finset.sum_congr rfl fun k _ => ?_)
  rw [idx_call0, val_main_call0_v0_apply]
  rfl

/-- The centre row's norm. -/
theorem centreNorm_apply (x1 : (⟨S16384, .i32⟩ : BufTy).Contents (Elt Ideal)) (x2 : (⟨S2x100x512, .f32⟩ : BufTy).Contents (Elt Ideal))
    (hl : InRange x1) (v : Fin 2) (b : Fin 16384) :
    val_main_v17 (F := Ideal) x1 x2 (ix2 v b) = Ideal.sqrt (∑ d, centre x2 x1 v b d * centre x2 x1 v b d) := by
  rw [val_main_v17_apply, val_main_call1_v1_apply, val_main_call1_cst_apply]
  show Ideal.sqrt (Ideal.ofBits .f32 0x00000000#32 + _) = _
  rw [Ideal.ofBits_zero_f32, zero_add]
  refine congrArg Ideal.sqrt (Finset.sum_congr rfl fun k _ => ?_)
  rw [idx_call1, val_main_call1_v0_apply, centre_apply x1 x2 hl]
  rfl

/-- The inner product of the feature row and its centre. -/
theorem dot_apply (x0 : (⟨S2x16384x512, .f32⟩ : BufTy).Contents (Elt Ideal)) (x1 : (⟨S16384, .i32⟩ : BufTy).Contents (Elt Ideal))
    (x2 : (⟨S2x100x512, .f32⟩ : BufTy).Contents (Elt Ideal)) (hl : InRange x1) (v : Fin 2) (b : Fin 16384) :
    val_main_v21 (F := Ideal) x0 x1 x2 (ix2 v b) = ∑ d, featRow x0 v b d * centre x2 x1 v b d := by
  rw [val_main_v21_apply, val_main_cst_5_apply]
  show Ideal.ofBits .f32 0x00000000#32 + _ = _
  rw [Ideal.ofBits_zero_f32, zero_add]
  refine Finset.sum_congr rfl fun k _ => ?_
  rw [idx_v21, val_main_v20_apply, centre_apply x1 x2 hl]
  rfl

/-- (b, d) ↦ (v, b, d): the indices of view v. -/
def viewEmb (v : Fin 2) : Fin 16384 × Fin 512 ↪ S2x16384x512.Idx :=
  ⟨fun p => ix3 v p.1 p.2, fun p q h => Prod.ext (congrFun h 1) (congrFun h 2)⟩

/-- The indices that drop to v under the removal of axes 1 and 2 are the (v, b, d). -/
theorem filter_drop (v : Fin 2) :
    Finset.univ.filter (fun i : S2x16384x512.Idx => reducesTo_S2x16384x512_S2_d1_2.drop i = ix1 v)
      = Finset.univ.map (viewEmb v) := by
  ext i
  simp only [Finset.mem_filter, Finset.mem_univ, true_and, Finset.mem_map, viewEmb, Function.Embedding.coeFn_mk, Prod.exists]
  constructor
  · intro h
    have h0 : i 0 = v := congrFun h 0
    refine ⟨i 1, i 2, ?_⟩
    rw [← h0]
    exact (eq_ix3 i).symm
  · rintro ⟨b, d, rfl⟩
    funext a
    match a with
    | ⟨0, _⟩ => rfl

/-- The reference's similarity at (v, b), labels in range. -/
theorem sims_apply (x0 : (⟨S2x16384x512, .f32⟩ : BufTy).Contents (Elt Ideal)) (x1 : (⟨S16384, .i32⟩ : BufTy).Contents (Elt Ideal))
    (x2 : (⟨S2x100x512, .f32⟩ : BufTy).Contents (Elt Ideal)) (hl : InRange x1) (v : Fin 2) (b : Fin 16384) :
    val_main_v23 (F := Ideal) x0 x1 x2 (ix2 v b) = simsAt x0 x1 x2 v b := by
  rw [val_main_v23_apply, val_main_v22_apply, val_main_v16_apply, val_main_v19_apply, dot_apply x0 x1 x2 hl,
    featNorm_apply, centreNorm_apply x1 x2 hl, val_main_v15_apply, val_main_v18_apply, val_main_cst_3_apply,
    val_main_cst_4_apply]
  rfl

/-- The reference's squared-distance sum of view v, labels in range. -/
theorem distSum_apply (x0 : (⟨S2x16384x512, .f32⟩ : BufTy).Contents (Elt Ideal)) (x1 : (⟨S16384, .i32⟩ : BufTy).Contents (Elt Ideal))
    (x2 : (⟨S2x100x512, .f32⟩ : BufTy).Contents (Elt Ideal)) (hl : InRange x1) (v : Fin 2) :
    val_main_v9 (F := Ideal) x0 x1 x2 (ix1 v) = distSum x0 x1 x2 v := by
  show Ideal.hostReduceAdd reducesTo_S2x16384x512_S2_d1_2 (val_main_v8 (F := Ideal) x0 x1 x2)
    (Ideal.ofBits .f32 0x00000000#32) (ix1 v) = _
  unfold Ideal.hostReduceAdd
  rw [filter_drop, Finset.sum_map, Fintype.sum_prod_type, Ideal.ofBits_zero_f32, zero_add]
  refine Finset.sum_congr rfl fun b _ => Finset.sum_congr rfl fun d _ => ?_
  show val_main_v8 (F := Ideal) x0 x1 x2 (ix3 v b d) = _
  rw [val_main_v8_apply, val_main_v7_apply, centre_apply x1 x2 hl]
  rfl

end Cert.ReferenceIdeal.RefValue

end
-- ==== Proof.PreDecode.lean ====
/-
  From the stated precondition to the one fact the proof uses: every label is a class of the table.
-/
import proofs.«426368_j30855045054677_3_alg».proof.Pre_finite_inputs
import proofs.«426368_j30855045054677_3_alg».proof.Proof.Gen.Pre_finite_inputs
import proofs.«426368_j30855045054677_3_alg».proof.Proof.Spec
import Idealize.ShloMosaic.Lib.ValueIdx
import Idealize.ShloMosaic.Lib.ReduceAll
import Idealize.ShloMosaic.Lib.StableHlo.Predicate

noncomputable section

namespace Cert.Pre_finite_inputs.Decode

open Cert.Pre_finite_inputs Cert.AnchorLoss
open Idealize.ShloMosaic Idealize.ShloMosaic.ValueIdx

/-- The precondition's last conjunct, decoded: every label lies in [0, 100). -/
theorem inRange_of_pre (x0 : FVec Ideal S2x16384x512 .f32) (x1 : IVec S16384 32) (x2 : FVec Ideal S2x100x512 .f32)
    (h : fn (F := Ideal) x0 x1 x2 = fun _ => 1#1) : InRange x1 := by
  intro b
  have h0 := congrFun h ix0
  dsimp only [fn] at h0
  obtain ⟨-, h14⟩ := IntOp.andi_eq_one.1 h0
  haveI : Subsingleton S_.Idx := ⟨fun a b => funext fun d => d.elim0⟩
  have hb := Host.reduce_andi_all _ _ _ _ _ h14 (ix1 b)
  obtain ⟨hge, hlt⟩ := IntOp.andi_eq_one.1 hb
  have hge' := IntOp.cmpi_sge.1 hge
  have hlt' := IntOp.cmpi_slt.1 hlt
  change (0#32 : BitVec 32).toInt ≤ _ at hge'
  change _ < (100#32 : BitVec 32).toInt at hlt'
  rw [show (0#32 : BitVec 32).toInt = 0 from by decide] at hge'
  rw [show (100#32 : BitVec 32).toInt = 100 from by decide] at hlt'
  exact ⟨hge', hlt'⟩

end Cert.Pre_finite_inputs.Decode

end
-- ==== Proof.lean ====
/-
  The certificate. Both programs, read over the extended reals with every label a class of the anchor table, return the
  same two results: per sample the cosine similarity of its feature row and the anchor row of its class, each norm
  floored at ε; and the loss, one closing function of the per-view sums of squared feature-to-centre distances and of
  the anchors.

  The kernel gathers a centre as a one-hot row times the zero-padded table and sums the squared distances tile by tile
  into a block it carries across a view's four tiles; the reference gathers by index and sums over samples and lanes at
  once. A one-hot weighted sum picks the named row, and a sum over tiles, rows and lanes is the sum over samples and
  lanes in any order, so the two agree at every index. The three frames come from the programs' runs; the ideal pass
  rewrote nothing, so its conjunct is trivial.
-/
import proofs.«426368_j30855045054677_3_alg».proof.Defs
import proofs.«426368_j30855045054677_3_alg».proof.Proof.Gen.Kernel
import proofs.«426368_j30855045054677_3_alg».proof.Proof.Gen.Kernel.Skeleton
import proofs.«426368_j30855045054677_3_alg».proof.Proof.Gen.Kernel.Launch
import proofs.«426368_j30855045054677_3_alg».proof.Proof.Gen.Kernel.Points
import proofs.«426368_j30855045054677_3_alg».proof.Proof.Gen.Kernel.Frame
import proofs.«426368_j30855045054677_3_alg».proof.Proof.Gen.KernelIdeal
import proofs.«426368_j30855045054677_3_alg».proof.Proof.Gen.KernelIdeal.Skeleton
import proofs.«426368_j30855045054677_3_alg».proof.Proof.Gen.KernelIdeal.Launch
import proofs.«426368_j30855045054677_3_alg».proof.Proof.Gen.KernelIdeal.Points
import proofs.«426368_j30855045054677_3_alg».proof.Proof.Gen.KernelIdeal.Frame
import proofs.«426368_j30855045054677_3_alg».proof.Proof.Gen.ReferenceIdeal
import proofs.«426368_j30855045054677_3_alg».proof.Proof.Gen.Pre_finite_inputs
import proofs.«426368_j30855045054677_3_alg».proof.Proof.Gen.ReferenceIdeal.Run
import proofs.«426368_j30855045054677_3_alg».proof.Proof.Gen.ReferenceIdeal.Read
import proofs.«426368_j30855045054677_3_alg».proof.Proof.KTail
import proofs.«426368_j30855045054677_3_alg».proof.Proof.RefIs
import proofs.«426368_j30855045054677_3_alg».proof.Proof.PreDecode
import Idealize.ShloMosaic.Adequacy
import Idealize.ShloMosaic.Init

noncomputable section

namespace Cert.Proof

open Idealize.ShloMosaic Idealize.SL.Sem Idealize.ShloMosaic.ValueIdx Cert.AnchorLoss

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2)
    (Cert.ReferenceIdeal.Value.run (F := Ideal) m ρ)

theorem preserves : Cert.preserves_Kernel_KernelIdeal := trivial

/-- With every label a class of the table the two programs end with equal losses and equal similarities. -/
theorem algebraic : Cert.algebraic_KernelIdeal_ReferenceIdeal := by
  intro m ρ m' ρ' hpre hagree
  have hl : ∀ c, InRange (Cert.KernelIdeal.Accum.labels m c) := fun c =>
    Cert.Pre_finite_inputs.Decode.inRange_of_pre _ _ _ (hpre c)
  refine ⟨fun c => Cert.ReferenceIdeal.Tail.lossOf (F := Ideal) (Cert.KernelIdeal.Results.laneSums m c)
      (Cert.KernelIdeal.Accum.anchors m c), fun c => Cert.KernelIdeal.Results.simsOut m c,
    Cert.KernelIdeal.Results.run m ρ hl, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v56_eq _ _ _).trans ?_
    rw [Cert.ReferenceIdeal.Tail.loss_eq, (hagree c).1, (hagree c).2.1, (hagree c).2.2]
    refine congrArg (fun ss => Cert.ReferenceIdeal.Tail.lossOf (F := Ideal) ss _) (funext fun j => ?_)
    obtain ⟨v, rfl⟩ : ∃ v : Fin 2, j = ix1 v := ⟨j 0, eq_ix1 j⟩
    rw [Cert.KernelIdeal.Results.laneSums_apply]
    exact Cert.ReferenceIdeal.RefValue.distSum_apply _ _ _ (hl c) v
  · refine (Cert.ReferenceIdeal.Read.val_main_v23_eq _ _ _).trans ?_
    rw [(hagree c).1, (hagree c).2.1, (hagree c).2.2]
    funext j
    obtain ⟨v, b, rfl⟩ : ∃ (v : Fin 2) (b : Fin 16384), j = ix2 v b := ⟨j 0, j 1, eq_ix2 j⟩
    exact (Cert.ReferenceIdeal.RefValue.sims_apply _ _ _ (hl c) v b).trans
      (Cert.KernelIdeal.Results.simsOut_apply m c v b).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
